-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S512x512 : Shape := ⟨2, ![512, 512]⟩
abbrev S1024x512 : Shape := ⟨2, ![1024, 512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg11 : FVec F S1024x512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S1024x512 .f32 := Host.absf main_arg11
  let main_cst_20 : FVec F S_ .f32 := constant S_ .f32 0x7F800000#32
  let main_v55 : FVec F S1024x512 .f32 := broadcastInDim S1024x512 ![] bcast_S_S1024x512 main_cst_20
  let main_v56 : IVec S1024x512 1 := cmpf .olt main_v54 main_v55
  let main_c_21 : IVec S_ 1 := constantI S_ 1 1#1
  let main_v57 : IVec S_ 1 := (fun x v => Host.reduce IntOp.andi x v reducesTo_S1024x512_S_d0_1 h_S_) main_v56 main_c_21
  let main_v58 : IVec S_ 1 := andi main_v53 main_v57
  main_v58

def fn_part2 {F : FTy → Type} [FloatOps F] (main_arg7 : FVec F S512x512 .f32) (main_arg8 : FVec F S1024x512 .f32) (main_arg9 : FVec F S1024x512 .f32) (main_arg10 : FVec F S1024x512 .f32) (main_arg11 : FVec F S1024x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_v48 main_v49 main_v50

def fn_part1 {F : FTy → Type} [FloatOps F] (main_arg4 : FVec F S512x512 .f32) (main_arg5 : FVec F S512x512 .f32) (main_arg6 : FVec F S512x512 .f32) (main_arg7 : FVec F S512x512 .f32) (main_arg8 : FVec F S1024x512 .f32) (main_arg9 : FVec F S1024x512 .f32) (main_arg10 : FVec F S1024x512 .f32) (main_arg11 : FVec F S1024x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x1024x512 .f32) (main_arg1 : FVec F S32x1024x512 .f32) (main_arg2 : FVec F S512x512 .f32) (main_arg3 : FVec F S512x512 .f32) (main_arg4 : FVec F S512x512 .f32) (main_arg5 : FVec F S512x512 .f32) (main_arg6 : FVec F S512x512 .f32) (main_arg7 : FVec F S512x512 .f32) (main_arg8 : FVec F S1024x512 .f32) (main_arg9 : FVec F S1024x512 .f32) (main_arg10 : FVec F S1024x512 .f32) (main_arg11 : FVec F S1024x512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_v13 main_v16
-- ==== Kernel.lean ====
abbrev S32x1024x512 : Shape := ⟨3, ![32, 1024, 512]⟩
abbrev S512x512 : Shape := ⟨2, ![512, 512]⟩
abbrev S1024x512 : Shape := ⟨2, ![1024, 512]⟩
abbrev S32x1x1024 : Shape := ⟨3, ![32, 1, 1024]⟩
abbrev S1x1024x512 : Shape := ⟨3, ![1, 1024, 512]⟩
abbrev S1x1x1024 : Shape := ⟨3, ![1, 1, 1024]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S512 : Shape := ⟨1, ![512]⟩
abbrev S1x1024 : Shape := ⟨2, ![1, 1024]⟩
abbrev S32x1024 : Shape := ⟨2, ![32, 1024]⟩

abbrev nBuf : Space → Nat
  | .hbm => 22
  | .vmem => 16
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S32x1024x512, .bf16⟩
  | .hbm, ⟨13, _⟩ => ⟨S32x1024x512, .bf16⟩
  | .hbm, ⟨14, _⟩ => ⟨S512x512, .bf16⟩
  | .hbm, ⟨15, _⟩ => ⟨S512x512, .bf16⟩
  | .hbm, ⟨16, _⟩ => ⟨S512x512, .bf16⟩
  | .hbm, ⟨17, _⟩ => ⟨S512x512, .bf16⟩
  | .hbm, ⟨18, _⟩ => ⟨S512x512, .bf16⟩
  | .hbm, ⟨19, _⟩ => ⟨S512x512, .bf16⟩
  | .hbm, ⟨20, _⟩ => ⟨S32x1x1024, .f32⟩
  | .hbm, ⟨21, _⟩ => ⟨S32x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x1x1024, .f32⟩
  | .local _ .vmem, ⟨15, _⟩ => ⟨S1x1x1024, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  reduces_S1024x1024_S1024 : S1024x1024.Reduces [1] S1024
  shapeCasts_S1024_S1024x1 : S1024.ShapeCasts S1024x1
  broadcasts_S1024x1_S1024x1024 : S1024x1.Broadcasts S1024x1024
  transposes_S1024x1024_p1_0_S1024x1024 : S1024x1024.Transposes [1, 0] S1024x1024
  reduces_S1024x512_S512 : S1024x512.Reduces [0] S512
  concatenates_S512_S512_S1024_d0 : Shape.Concatenates [S512, S512] S1024 0
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .bf16 = 32 ∨ (Rect.block (s := S32x1024x512) S1x1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x1024x512.size a
  hwx0_1 : ∀ i : grid0.Coords, EltTy.bits .bf16 = 32 ∨ (Rect.block (s := S32x1024x512) S1x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .f32 = 32 ∨ (Rect.block (s := S1024x512) S1024x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .f32 = 32 ∨ (Rect.block (s := S1024x512) S1024x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .f32 = 32 ∨ (Rect.block (s := S1024x512) S1024x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S1024x512.size a
  hwx0_11 : ∀ i : grid0.Coords, EltTy.bits .f32 = 32 ∨ (Rect.block (s := S1024x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1024.size a ≤ S32x1x1024.size a
  hwx0_12 : ∀ i : grid0.Coords, EltTy.bits .f32 = 32 ∨ (Rect.block (s := S32x1x1024) S1x1x1024.size (cc0_transform_12 i) (hinb0_12 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x1x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S512x512 : Shape := ⟨2, ![512, 512]⟩
abbrev S1024x512 : Shape := ⟨2, ![1024, 512]⟩
abbrev S1x1024x512 : Shape := ⟨3, ![1, 1024, 512]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S32x512 : Shape := ⟨2, ![32, 512]⟩

abbrev nBuf : Space → Nat
  | .hbm => 72
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S32x1024x512, .f32⟩
  | .hbm, ⟨13, _⟩ => ⟨S1x1024x512, .f32⟩
  | .hbm, ⟨14, _⟩ => ⟨S32x1024x512, .f32⟩
  | .hbm, ⟨15, _⟩ => ⟨S32x1024x512, .f32⟩
  | .hbm, ⟨16, _⟩ => ⟨S_, .f32⟩
  | .hbm, ⟨17, _⟩ => ⟨S32x1024x512, .f32⟩
  | .hbm, ⟨18, _⟩ => ⟨S32x1024x512, .f32⟩
  | .hbm, ⟨19, _⟩ => ⟨S32x1024x512, .f32⟩
  | .hbm, ⟨20, _⟩ => ⟨S1x1024x512, .f32⟩
  | .hbm, ⟨21, _⟩ => ⟨S32x1024x512, .f32⟩
  | .hbm, ⟨22, _⟩ => ⟨S32x1024x512, .f32⟩
  | .hbm, ⟨23, _⟩ => ⟨S_, .f32⟩
  | .hbm, ⟨24, _⟩ => ⟨S32x1024x512, .f32⟩
  | .hbm, ⟨25, _⟩ => ⟨S32x1024x512, .f32⟩
  | .hbm, ⟨26, _⟩ => ⟨S32x1024x1024, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024x1, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024, .f32⟩
  | .hbm, ⟨38, _⟩ => ⟨S32x1024x1, .f32⟩
  | .hbm, ⟨39, _⟩ => ⟨S32x1024x1024, .f32⟩
  | .hbm, ⟨40, _⟩ => ⟨S32x1024x1024, .f32⟩
  | .hbm, ⟨41, _⟩ => ⟨S32x1024x512, .f32⟩
  | .hbm, ⟨42, _⟩ => ⟨S32x1024x512, .f32⟩
  | .hbm, ⟨43, _⟩ => ⟨S32x1024x512, .f32⟩
  | .hbm, ⟨44, _⟩ => ⟨S32x1024x512, .f32⟩
  | .hbm, ⟨45, _⟩ => ⟨S32x1024x512, .f32⟩
  | .hbm, ⟨46, _⟩ => ⟨S1x1024x512, .f32⟩
  | .hbm, ⟨47, _⟩ => ⟨S32x1024x512, .f32⟩
  | .hbm, ⟨48, _⟩ => ⟨S32x1024x512, .f32⟩
  | .hbm, ⟨49, _⟩ => ⟨S_, .f32⟩
  | .hbm, ⟨50, _⟩ => ⟨S32x1024x512, .f32⟩
  | .hbm, ⟨51, _⟩ => ⟨S32x1024x512, .f32⟩
  | .hbm, ⟨52, _⟩ => ⟨S32x1024x512, .f32⟩
  | .hbm, ⟨53, _⟩ => ⟨S32x1024x512, .f32⟩
  | .hbm, ⟨54, _⟩ => ⟨S32x1024x512, .f32⟩
  | .hbm, ⟨55, _⟩ => ⟨S1x1024x512, .f32⟩
  | .hbm, ⟨56, _⟩ => ⟨S32x1024x512, .f32⟩
  | .hbm, ⟨57, _⟩ => ⟨S32x1024x512, .f32⟩
  | .hbm, ⟨58, _⟩ => ⟨S_, .f32⟩
  | .hbm, ⟨59, _⟩ => ⟨S32x1024x512, .f32⟩
  | .hbm, ⟨60, _⟩ => ⟨S32x1024x512, .f32⟩
  | .hbm, ⟨61, _⟩ => ⟨S_, .f32⟩
  | .hbm, ⟨62, _⟩ => ⟨S32x512, .f32⟩
  | .hbm, ⟨63, _⟩ => ⟨S_, .f32⟩
  | .hbm, ⟨64, _⟩ => ⟨S32x512, .f32⟩
  | .hbm, ⟨65, _⟩ => ⟨S32x512, .f32⟩
  | .hbm, ⟨66, _⟩ => ⟨S_, .f32⟩
  | .hbm, ⟨67, _⟩ => ⟨S32x512, .f32⟩
  | .hbm, ⟨68, _⟩ => ⟨S_, .f32⟩
  | .hbm, ⟨69, _⟩ => ⟨S32x512, .f32⟩
  | .hbm, ⟨70, _⟩ => ⟨S32x512, .f32⟩
  | .hbm, ⟨71, _⟩ => ⟨S32x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call3_cst : Ref sig .tc := ⟨.hbm, 58, rfl⟩
abbrev main_call3_v0 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]

class Facts₀ : Prop where
  bcast_S1024x512_S1x1024x512_1_2 : S1024x512.BroadcastsInDim S1x1024x512 (![1, 2] : Fin 2 → Fin S1x1024x512.rank)
  bcast_S1x1024x512_S32x1024x512_0_1_2 : S1x1024x512.BroadcastsInDim S32x1024x512 (![0, 1, 2] : Fin 3 → Fin S32x1024x512.rank)
  bcast_S_S32x1024x512 : S_.BroadcastsInDim S32x1024x512 (![] : Fin 0 → Fin S32x1024x512.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x512_S32x512_d1 : S32x1024x512.ReducesTo [1] S32x512
  bcast_S_S32x512 : S_.BroadcastsInDim S32x512 (![] : Fin 0 → Fin S32x512.rank)
  concatenates_S32x512_S32x512_S32x1024_d1 : Shape.Concatenates [S32x512, S32x512] S32x1024 1
  dot_S32x1024x512_S512x512_S32x1024x512_2_0_01_1_n_n_wf : DotDims.WF S32x1024x512 S512x512 S32x1024x512 [2] [0] [0, 1] [1] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_1_1_2_2_0_0_wf : DotDims.WF S32x1024x1024 S32x1024x512 S32x1024x512 [1] [1] [2] [2] [0] [0]
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_0_01_1_n_n : DotDims S32x1024x512 S512x512 S32x1024x512 where
  lhsContracting := [2]
  rhsContracting := [0]
  lhsNonContracting := [0, 1]
  rhsNonContracting := [1]
  lhsBatch := []
  rhsBatch := []
  wf := dot_S32x1024x512_S512x512_S32x1024x512_2_0_01_1_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_1_1_2_2_0_0 : DotDims S32x1024x1024 S32x1024x512 S32x1024x512 where
  lhsContracting := [1]
  rhsContracting := [1]
  lhsNonContracting := [2]
  rhsNonContracting := [2]
  lhsBatch := [0]
  rhsBatch := [0]
  wf := dot_S32x1024x1024_S32x1024x512_S32x1024x512_1_1_2_2_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.KStages.lean ====
/-
  The kernel body's arithmetic, one named term per intermediate matrix.

  The body computes, from the two sequence blocks, the six weight matrices and the four bias matrices of one batch
  element: the two encodings, their score matrix, its softmax along rows, the two attention products, the two output
  matrices and their column means laid side by side in one row. Each definition below is that step as the kernel's own
  vector operations; the last two theorems say the printed payloads are these terms composed.
-/
import proofs.«168137_j42631845380745_1_alg».proof.Proof.Gen.KernelIdeal.Skeleton

noncomputable section

namespace Cert.KernelIdeal.KV

open Idealize.ShloMosaic Cert.KernelIdeal Cert.KernelIdeal.Gen

variable {F : FTy → Type} [FloatOps F]

/-- relu (x w + b): a product into the zero matrix, the bias added, the maximum with zero. -/
def kEnc (x : FVec F S1024x512 .bf16) (w : FVec F S512x512 .bf16) (b : FVec F S1024x512 .f32) : FVec F S1024x512 .f32 :=
  maximumf (addf (matmul dot_S1024x512_S512x512_S1024x512_1_0_0_1_n_n none x w (constant S1024x512 .f32 0x00000000#32)) b)
    (broadcast S1024x512 (Scalar.ofBits .f32 0x00000000#32))

/-- The scores: e2 times the transpose of e1. -/
def kScore (e2 : FVec F S1024x512 .f32) (e1 : FVec F S1024x512 .bf16) : FVec F S1024x1024 .f32 :=
  matmul dot_S1024x512_S512x1024_S1024x1024_1_0_0_1_n_n none (truncf .bf16 e2 bitsLt_bf16_f32)
    (transpose S512x1024 [1, 0] e1 transposes_S1024x512_p1_0_S512x1024) (constant S1024x1024 .f32 0x00000000#32)

/-- The row maxima, taken from minus infinity. -/
def kRowMax (s : FVec F S1024x1024 .f32) : FVec F S1024 .f32 :=
  maximumf (broadcast S1024 (Scalar.ofBits .f32 0xFF800000#32))
    (multiReduction .maximumf [1] S1024 s 0xFF800000#32 reduces_S1024x1024_S1024 (.inl rfl) rfl)

/-- The exponentials of the scores less their row maximum. -/
def kExp (s : FVec F S1024x1024 .f32) : FVec F S1024x1024 .f32 :=
  exp (subf s (broadcastTo S1024x1024 (shapeCast S1024x1 (kRowMax s) shapeCasts_S1024_S1024x1) broadcasts_S1024x1_S1024x1024))

/-- The softmax along rows: each exponential over its row's sum. -/
def kSoftmax (s : FVec F S1024x1024 .f32) : FVec F S1024x1024 .f32 :=
  divf (kExp s) (broadcastTo S1024x1024 (shapeCast S1024x1
    (multiReduction .add [1] S1024 (kExp s) 0x00000000#32 reduces_S1024x1024_S1024 (.inl rfl) rfl) shapeCasts_S1024_S1024x1) broadcasts_S1024x1_S1024x1024)

/-- The transposed attention against x. -/
def kCtxT (a : FVec F S1024x1024 .f32) (x : FVec F S1024x512 .bf16) : FVec F S1024x512 .f32 :=
  matmul dot_S1024x1024_S1024x512_S1024x512_1_0_0_1_n_n none
    (transpose S1024x1024 [1, 0] (truncf .bf16 a bitsLt_bf16_f32) transposes_S1024x1024_p1_0_S1024x1024) x (constant S1024x512 .f32 0x00000000#32)

/-- The attention against x. -/
def kCtx (a : FVec F S1024x1024 .f32) (x : FVec F S1024x512 .bf16) : FVec F S1024x512 .f32 :=
  matmul dot_S1024x1024_S1024x512_S1024x512_1_0_0_1_n_n none (truncf .bf16 a bitsLt_bf16_f32) x (constant S1024x512 .f32 0x00000000#32)

/-- relu (x u + c v + b). -/
def kOut (x : FVec F S1024x512 .bf16) (u : FVec F S512x512 .bf16) (c : FVec F S1024x512 .f32) (v : FVec F S512x512 .bf16)
    (b : FVec F S1024x512 .f32) : FVec F S1024x512 .f32 :=
  maximumf (addf (addf (matmul dot_S1024x512_S512x512_S1024x512_1_0_0_1_n_n none x u (constant S1024x512 .f32 0x00000000#32))
      (matmul dot_S1024x512_S512x512_S1024x512_1_0_0_1_n_n none (truncf .bf16 c bitsLt_bf16_f32) v (constant S1024x512 .f32 0x00000000#32))) b)
    (broadcast S1024x512 (Scalar.ofBits .f32 0x00000000#32))

/-- The column means: the sum over the 1024 rows divided by 1024. -/
def kMean (o : FVec F S1024x512 .f32) : FVec F S512 .f32 :=
  divf (multiReduction .add [0] S512 o 0x00000000#32 reduces_S1024x512_S512 (.inl rfl) rfl) (broadcast S512 (Scalar.ofBits .f32 0x44800000#32))

/-- Two vectors of 512 laid end to end as one row of 1024. -/
def kRow (m1 m2 : FVec F S512 .f32) : FVec F S1x1024 .f32 :=
  shapeCast S1x1024 (concatenate S1024 0 [⟨S512, m1⟩, ⟨S512, m2⟩] concatenates_S512_S512_S1024_d0) shapeCasts_S1024_S1x1024

/-- The second encoding's payload is `kEnc` of the second block and its weights and bias. -/
theorem pay8_eq (v2 : Vec F S1x1024x512 .bf16) (v6 : Vec F S512x512 .bf16) (v17 : Vec F S1024x512 .f32) :
    k0_pay8 v2 v6 v17 = kEnc (k0_pay3 v2) (shapeCast S512x512 v6 shapeCasts_S512x512_S512x512) v17 := rfl

/-- The first encoding's payload is `kEnc` of the first block and its weights and bias, its format changed. -/
theorem pay9_eq (v0 : Vec F S1x1024x512 .bf16) (v4 : Vec F S512x512 .bf16) (v16 : Vec F S1024x512 .f32) :
    k0_pay9 v0 v4 v16 = truncf .bf16 (kEnc (k0_pay2 v0) (shapeCast S512x512 v4 shapeCasts_S512x512_S512x512) v16) bitsLt_bf16_f32 := rfl

/-- The rest of the body: the result row from the two blocks, the remaining weights and biases and the two encodings. -/
theorem pay10_eq (v1 v3 : FVec F S1024x512 .bf16) (v9 v11 v13 v15 : FVec F S512x512 .bf16) (v18 v19 : Vec F S1024x512 .f32)
    (v27 : FVec F S1024x512 .f32) (v28 : FVec F S1024x512 .bf16) :
    k0_pay10 v1 v3 v9 v11 v13 v15 v18 v19 v27 v28
      = kRow (kMean (kOut v1 v9 (kCtxT (kSoftmax (kScore v27 v28)) v3) v13 v18))
          (kMean (kOut v3 v11 (kCtx (kSoftmax (kScore v27 v28)) v1) v15 v19)) := rfl

end Cert.KernelIdeal.KV

end
-- ==== Proof.Spec.lean ====
/-
  The mathematics both programs compute, per batch element, on the extended reals.

  For one batch element let x1, x2 be the 1024 x 512 sequences, W, U, V the 512 x 512 weights and b the 1024 x 512
  biases. Then
    e1 = relu (x1 W1 + b1),   e2 = relu (x2 W2 + b2)
    s i j = sum over e of e2 i e * e1 j e                      (the scores)
    a = softmax of s along j: exp (s i j - rowmax i) / sum over j' of exp (s i j' - rowmax i)
    c1 j e = sum over i of a i j * x2 i e,   c2 i e = sum over j of a i j * x1 j e
    o1 = relu (x1 U1 + c1 V1 + b3),   o2 = relu (x2 U2 + c2 V2 + b4)
  and the result row is the column means of o1 (entries 0..511) followed by those of o2 (entries 512..1023).
  Every function below is stated entry by entry over coordinates; the three float literals (minus infinity, zero and
  1024) are kept as the words both programs print.
-/
import Idealize.ShloMosaic.PureOps.Ideal

noncomputable section

namespace Cert.Spec

open Idealize.ShloMosaic

/-- A matrix as a function of its two coordinates. -/
abbrev Mat (a b : Nat) := Fin a → Fin b → EReal

/-- The word of minus infinity, of zero, and of 1024, read as extended reals. -/
abbrev negInf : EReal := Ideal.ofBits .f32 0xFF800000#32
abbrev zero : EReal := Ideal.ofBits .f32 0x00000000#32
abbrev count : EReal := Ideal.ofBits .f32 0x44800000#32

/-- The product of a 1024 x 512 matrix with a 512 x 512 one. -/
def lin (x : Mat 1024 512) (W : Mat 512 512) : Mat 1024 512 := fun t f => ∑ e : Fin 512, x t e * W e f

/-- relu (x W + b). -/
def enc (x : Mat 1024 512) (W : Mat 512 512) (b : Mat 1024 512) : Mat 1024 512 := fun t f => max (lin x W t f + b t f) zero

/-- The scores: row i of e2 against row j of e1. -/
def score (e2 e1 : Mat 1024 512) : Mat 1024 1024 := fun i j => ∑ e : Fin 512, e2 i e * e1 j e

/-- The maximum of row i of the scores, taken from minus infinity. -/
def rowmax (s : Mat 1024 1024) (i : Fin 1024) : EReal :=
  max negInf ((Finset.univ : Finset (Fin 1024)).fold max negInf (fun j => s i j))

/-- The shifted exponentials. -/
def ex (s : Mat 1024 1024) : Mat 1024 1024 := fun i j => Ideal.exp (s i j - rowmax s i)

/-- The softmax along the second coordinate. -/
def att (s : Mat 1024 1024) : Mat 1024 1024 := fun i j => Ideal.div (ex s i j) (∑ j' : Fin 1024, ex s i j')

/-- The attention transposed against x: c j e = sum over i of a i j * x i e. -/
def ctxT (a : Mat 1024 1024) (x : Mat 1024 512) : Mat 1024 512 := fun j e => ∑ i : Fin 1024, a i j * x i e

/-- The attention against x: c i e = sum over j of a i j * x j e. -/
def ctx (a : Mat 1024 1024) (x : Mat 1024 512) : Mat 1024 512 := fun i e => ∑ j : Fin 1024, a i j * x j e

/-- relu (x U + c V + b). -/
def outp (x : Mat 1024 512) (U : Mat 512 512) (c : Mat 1024 512) (V : Mat 512 512) (b : Mat 1024 512) : Mat 1024 512 :=
  fun t f => max ((lin x U t f + lin c V t f) + b t f) zero

/-- The mean of column f over the 1024 rows. -/
def mean (o : Mat 1024 512) (f : Fin 512) : EReal := Ideal.div (∑ t : Fin 1024, o t f) count

/-- The attention matrix of one batch element. -/
def attn (x1 x2 : Mat 1024 512) (W1 W2 : Mat 512 512) (b1 b2 : Mat 1024 512) : Mat 1024 1024 :=
  att (score (enc x2 W2 b2) (enc x1 W1 b1))

/-- The first and the second half of the result row, before the means. -/
def out1 (x1 x2 : Mat 1024 512) (W1 W2 U1 V1 : Mat 512 512) (b1 b2 b3 : Mat 1024 512) : Mat 1024 512 :=
  outp x1 U1 (ctxT (attn x1 x2 W1 W2 b1 b2) x2) V1 b3
def out2 (x1 x2 : Mat 1024 512) (W1 W2 U2 V2 : Mat 512 512) (b1 b2 b4 : Mat 1024 512) : Mat 1024 512 :=
  outp x2 U2 (ctx (attn x1 x2 W1 W2 b1 b2) x1) V2 b4

/-- The result row of one batch element: the means of out1, then the means of out2. -/
def result (x1 x2 : Mat 1024 512) (W1 W2 U1 U2 V1 V2 : Mat 512 512) (b1 b2 b3 b4 : Mat 1024 512) (q : Fin 1024) : EReal :=
  if h : q.val < 512 then mean (out1 x1 x2 W1 W2 U1 V1 b1 b2 b3) ⟨q.val, h⟩
  else mean (out2 x1 x2 W1 W2 U2 V2 b1 b2 b4) ⟨q.val - 512, by omega⟩

end Cert.Spec

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KMatmul.lean ====
/-
  The kernel's five products read entry by entry.

  Each of the encodings, the scores, the two attention products and the two output matrices is a matrix product into
  the zero matrix (with a transpose of one operand for the scores and for the first attention product), followed by
  additions and a maximum with zero. Read at an entry (row, column) each is the sum over the contracted coordinate that
  the specification states.
-/
import proofs.«168137_j42631845380745_1_alg».proof.Proof.KStages
import proofs.«168137_j42631845380745_1_alg».proof.Proof.Spec
import proofs.«168137_j42631845380745_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- relu (x w + b) at (t, f). -/
theorem kEnc_apply (x : FVec Ideal S1024x512 .bf16) (w : FVec Ideal S512x512 .bf16) (b : FVec Ideal S1024x512 .f32)
    (t : Fin 1024) (f : Fin 512) :
    kEnc x w b (ix2 t f) = Cert.Spec.enc (fun t e => x (ix2 t e)) (fun e f => w (ix2 e f)) (fun t f => b (ix2 t f)) t f := by
  unfold kEnc Cert.Spec.enc Cert.Spec.lin
  rw [maximumf_apply, addf_apply, broadcast_apply]
  show max (FloatOps.matmul (DotDims.plain 1024 512 512) none x w (constant ⟨2, ![1024, 512]⟩ .f32 0x00000000#32) (ix2 t f)
    + b (ix2 t f)) _ = _
  rw [Cert.Matmul.matmul_plain_apply]
  rfl

/-- The scores at (i, j): row i of e2 against row j of e1. -/
theorem kScore_apply (e2 : FVec Ideal S1024x512 .f32) (e1 : FVec Ideal S1024x512 .bf16) (i j : Fin 1024) :
    kScore e2 e1 (ix2 i j) = Cert.Spec.score (fun t e => e2 (ix2 t e)) (fun t e => e1 (ix2 t e)) i j := by
  unfold kScore Cert.Spec.score
  show FloatOps.matmul (DotDims.plain 1024 512 1024) none (truncf .bf16 e2 bitsLt_bf16_f32)
    (transpose S512x1024 [1, 0] e1 transposes_S1024x512_p1_0_S512x1024) (constant ⟨2, ![1024, 1024]⟩ .f32 0x00000000#32) (ix2 i j) = _
  rw [Cert.Matmul.matmul_plain_apply]
  refine Finset.sum_congr rfl fun k _ => ?_
  rw [truncf_apply, transpose_ix2_apply]

/-- The transposed attention against x at (j, e). -/
theorem kCtxT_apply (a : FVec Ideal S1024x1024 .f32) (x : FVec Ideal S1024x512 .bf16) (j : Fin 1024) (e : Fin 512) :
    kCtxT a x (ix2 j e) = Cert.Spec.ctxT (fun i j => a (ix2 i j)) (fun t e => x (ix2 t e)) j e := by
  unfold kCtxT Cert.Spec.ctxT
  show FloatOps.matmul (DotDims.plain 1024 1024 512) none
    (transpose S1024x1024 [1, 0] (truncf .bf16 a bitsLt_bf16_f32) transposes_S1024x1024_p1_0_S1024x1024) x
    (constant ⟨2, ![1024, 512]⟩ .f32 0x00000000#32) (ix2 j e) = _
  rw [Cert.Matmul.matmul_plain_apply]
  refine Finset.sum_congr rfl fun k _ => ?_
  rw [transpose_ix2_apply, truncf_apply]

/-- The attention against x at (i, e). -/
theorem kCtx_apply (a : FVec Ideal S1024x1024 .f32) (x : FVec Ideal S1024x512 .bf16) (i : Fin 1024) (e : Fin 512) :
    kCtx a x (ix2 i e) = Cert.Spec.ctx (fun i j => a (ix2 i j)) (fun t e => x (ix2 t e)) i e := by
  unfold kCtx Cert.Spec.ctx
  show FloatOps.matmul (DotDims.plain 1024 1024 512) none (truncf .bf16 a bitsLt_bf16_f32) x
    (constant ⟨2, ![1024, 512]⟩ .f32 0x00000000#32) (ix2 i e) = _
  rw [Cert.Matmul.matmul_plain_apply]
  rfl

/-- relu (x u + c v + b) at (t, f). -/
theorem kOut_apply (x : FVec Ideal S1024x512 .bf16) (u : FVec Ideal S512x512 .bf16) (c : FVec Ideal S1024x512 .f32)
    (v : FVec Ideal S512x512 .bf16) (b : FVec Ideal S1024x512 .f32) (t : Fin 1024) (f : Fin 512) :
    kOut x u c v b (ix2 t f) = Cert.Spec.outp (fun t e => x (ix2 t e)) (fun e f => u (ix2 e f)) (fun t e => c (ix2 t e))
      (fun e f => v (ix2 e f)) (fun t f => b (ix2 t f)) t f := by
  unfold kOut Cert.Spec.outp Cert.Spec.lin
  rw [maximumf_apply, addf_apply, addf_apply, broadcast_apply]
  show max ((FloatOps.matmul (DotDims.plain 1024 512 512) none x u (constant ⟨2, ![1024, 512]⟩ .f32 0x00000000#32) (ix2 t f)
    + FloatOps.matmul (DotDims.plain 1024 512 512) none (truncf .bf16 c bitsLt_bf16_f32) v
        (constant ⟨2, ![1024, 512]⟩ .f32 0x00000000#32) (ix2 t f)) + b (ix2 t f)) _ = _
  rw [Cert.Matmul.matmul_plain_apply, Cert.Matmul.matmul_plain_apply]
  rfl

end Cert.KernelIdeal.KV

end
-- ==== Proof.KSoftmax.lean ====
/-
  The kernel's softmax read entry by entry.

  The row maximum is a fold of max from minus infinity over the 1024 columns, met once more with minus infinity; it is
  spread back over the row through a column shape, subtracted, and the exponential taken; the row sum of the
  exponentials is spread back the same way and divides them.
-/
import proofs.«168137_j42631845380745_1_alg».proof.Proof.KStages
import proofs.«168137_j42631845380745_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- The index over row `i` with column `k` put on the summed axis is `(i, k)`. -/
private theorem lift_row (h : S1024x1024.Reduces [1] S1024) (i k : Fin 1024) :
    h.lift (ix1 i) k = ix2 i k :=
  funext fun a => Fin.ext (by match a with | ⟨0, _⟩ => rfl | ⟨1, _⟩ => rfl)

/-- An `[a]` array cast to the column shape `[a, 1]` reads, at `(i, u)`, the operand at `i`, whatever the unit
    coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row maximum at i. -/
theorem kRowMax_apply (s : FVec Ideal S1024x1024 .f32) (i : Fin 1024) :
    kRowMax s (ix1 i) = Cert.Spec.rowmax (fun i j => s (ix2 i j)) i := by
  -- the fold of max over row i's columns, each column k read at (i, k)
  have hrow : s ∘ reduces_S1024x1024_S1024.lift (ix1 i) = fun j => s (ix2 i j) :=
    funext fun k => congrArg s (lift_row _ i k)
  have hred := Ideal.multiReduction_maximumf_single s 0xFF800000#32 reduces_S1024x1024_S1024 (.inl rfl) rfl (ix1 i)
  rw [hrow] at hred
  unfold kRowMax Cert.Spec.rowmax
  rw [maximumf_apply]
  exact congrArg (max (Cert.Spec.negInf : EReal)) hred

/-- The shifted exponential at (i, j). -/
theorem kExp_apply (s : FVec Ideal S1024x1024 .f32) (i j : Fin 1024) :
    kExp s (ix2 i j) = Cert.Spec.ex (fun i j => s (ix2 i j)) i j := by
  unfold kExp Cert.Spec.ex
  show Ideal.exp (subf s _ (ix2 i j)) = _
  rw [subf_apply, broadcastTo_a1_ab_apply, shapeCast_a_a1_apply, kRowMax_apply]

/-- The softmax at (i, j). -/
theorem kSoftmax_apply (s : FVec Ideal S1024x1024 .f32) (i j : Fin 1024) :
    kSoftmax s (ix2 i j) = Cert.Spec.att (fun i j => s (ix2 i j)) i j := by
  -- the row sum of the exponentials, each column k read at (i, k)
  have hsum := Ideal.multiReduction_add_single (kExp s) 0x00000000#32 reduces_S1024x1024_S1024 (.inl rfl) rfl (ix1 i)
  unfold kSoftmax Cert.Spec.att
  rw [divf_apply, broadcastTo_a1_ab_apply, shapeCast_a_a1_apply, kExp_apply]
  refine congrArg (Ideal.div _) (hsum.trans ?_)
  exact Finset.sum_congr rfl fun k _ => (congrArg (kExp s) (lift_row _ i k)).trans (kExp_apply s i k)

end Cert.KernelIdeal.KV

end
-- ==== Proof.KRow.lean ====
/-
  The end of the kernel body read entry by entry: the column means, the two halves laid in one row, and the shape
  changes between a block with a leading unit axis and the matrix inside it.
-/
import proofs.«168137_j42631845380745_1_alg».proof.Proof.KStages
import proofs.«168137_j42631845380745_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen

/-- The source index over column f with row k inserted is (k, f). -/
private theorem lift_col (f : Fin 512) (k : Fin 1024) :
    reduces_S1024x512_S512.lift (ix1 f) k = ix2 k f :=
  funext fun a => Fin.ext (by match a with | ⟨0, _⟩ => rfl | ⟨1, _⟩ => rfl)

/-- The mean of column f. -/
theorem kMean_apply (o : FVec Ideal S1024x512 .f32) (f : Fin 512) :
    kMean o (ix1 f) = Cert.Spec.mean (fun t f => o (ix2 t f)) f := by
  have h := Ideal.multiReduction_add_single (φ := .f32) (s := S1024x512) (t := S512) (a := 0) o 0x00000000#32
    reduces_S1024x512_S512 (.inl rfl) rfl (ix1 f)
  show Ideal.div (multiReduction (F := Ideal) .add [0] S512 o 0x00000000#32 reduces_S1024x512_S512 (.inl rfl) rfl (ix1 f))
      (Ideal.ofBits .f32 0x44800000#32) = Ideal.div (∑ t : Fin 1024, o (ix2 t f)) (Ideal.ofBits .f32 0x44800000#32)
  rw [h]
  congr 1
  exact Finset.sum_congr rfl fun k _ => congrArg o (lift_col f k)

/-- Entry q of the row is entry q of the first half when q < 512, else entry q - 512 of the second. -/
theorem kRow_apply (m1 m2 : FVec Ideal S512 .f32) (q : Fin 1024) :
    kRow m1 m2 (ix2 (0 : Fin 1) q)
      = if h : q.val < 512 then m1 (ix1 (⟨q.val, h⟩ : Fin 512)) else m2 (ix1 (⟨q.val - 512, by omega⟩ : Fin 512)) := by
  unfold kRow
  rw [shapeCast_a_1a_apply]
  by_cases h : q.val < 512
  · rw [dif_pos h]
    exact concatenate_pair_apply_left (t := S1024) (s₁ := S512) (s₂ := S512) 0 m1 m2 concatenates_S512_S512_S1024_d0
      (ix1 q) rfl (ix1 (⟨q.val, h⟩ : Fin 512)) (fun b => by match b with | ⟨0, _⟩ => rfl)
  · rw [dif_neg h]
    exact concatenate_pair_apply_right (t := S1024) (s₁ := S512) (s₂ := S512) 0 m1 m2 concatenates_S512_S512_S1024_d0
      (ix1 q) rfl rfl (ix1 (⟨q.val - 512, by omega⟩ : Fin 512))
      (fun b hb => by match b with | ⟨0, _⟩ => exact absurd rfl hb)
      (by show q.val - 512 + 512 = q.val; omega)

/-- The stored block [1, 1, 1024] at (0, 0, q) is the row [1, 1024] at (0, q). -/
theorem pay1_apply (v68 : FVec Ideal S1x1024 .f32) (q : Fin 1024) :
    k0_pay1 v68 (ix3 (0 : Fin 1) (0 : Fin 1) q) = v68 (ix2 (0 : Fin 1) q) := by
  unfold k0_pay1
  exact shapeCast_ab_1ab_apply v68 shapeCasts_S1x1024_S1x1x1024 0 0 q

/-- The sequence block [1, 1024, 512] read as a matrix: entry (t, e) is the block's (0, t, e). -/
theorem pay2_apply (v0 : Vec Ideal S1x1024x512 .bf16) (t : Fin 1024) (e : Fin 512) :
    k0_pay2 v0 (ix2 t e) = v0 (ix3 (0 : Fin 1) t e) := by
  unfold k0_pay2
  exact shapeCast_1ab_ab_apply v0 shapeCasts_S1x1024x512_S1024x512 t e
theorem pay3_apply (v2 : Vec Ideal S1x1024x512 .bf16) (t : Fin 1024) (e : Fin 512) :
    k0_pay3 v2 (ix2 t e) = v2 (ix3 (0 : Fin 1) t e) := by
  unfold k0_pay3
  exact shapeCast_1ab_ab_apply v2 shapeCasts_S1x1024x512_S1024x512 t e

/-- A shape change between equal shapes changes nothing. -/
theorem cast512_apply (w : Vec Ideal S512x512 .bf16) (e f : Fin 512) :
    (shapeCast S512x512 w shapeCasts_S512x512_S512x512 : FVec Ideal S512x512 .bf16) (ix2 e f) = w (ix2 e f) := by
  rw [shapeCast_self]
theorem pay4_apply (w : Vec Ideal S512x512 .bf16) (e f : Fin 512) : k0_pay4 w (ix2 e f) = w (ix2 e f) := cast512_apply w e f
theorem pay5_apply (w : Vec Ideal S512x512 .bf16) (e f : Fin 512) : k0_pay5 w (ix2 e f) = w (ix2 e f) := cast512_apply w e f
theorem pay6_apply (w : Vec Ideal S512x512 .bf16) (e f : Fin 512) : k0_pay6 w (ix2 e f) = w (ix2 e f) := cast512_apply w e f
theorem pay7_apply (w : Vec Ideal S512x512 .bf16) (e f : Fin 512) : k0_pay7 w (ix2 e f) = w (ix2 e f) := cast512_apply w e f

end Cert.KernelIdeal.KV

end
-- ==== Proof.KPayload.lean ====
/-
  The kernel body's stored block, read entry by entry, is the specification's result row of the batch element whose
  blocks it loaded: the payloads are the named steps composed, and each step read at an index is the specification's.
-/
import proofs.«168137_j42631845380745_1_alg».proof.Proof.KStages
import proofs.«168137_j42631845380745_1_alg».proof.Proof.KMatmul
import proofs.«168137_j42631845380745_1_alg».proof.Proof.KSoftmax
import proofs.«168137_j42631845380745_1_alg».proof.Proof.KRow
import proofs.«168137_j42631845380745_1_alg».proof.Proof.Spec
import Idealize.ShloMosaic.Lib.ValueIdx

noncomputable section

namespace Cert.KernelIdeal.KV

open Idealize.ShloMosaic Idealize.ShloMosaic.ValueIdx Cert.KernelIdeal Cert.KernelIdeal.Gen

/-- The row from the two blocks as matrices, the four later weights, the two later biases and the two encodings: its
    entry q is the mean of a column of the first output when q < 512, else of the second. -/
private theorem row_apply (x1 x2 : FVec Ideal S1024x512 .bf16) (u1 u2 v1 v2 : FVec Ideal S512x512 .bf16)
    (b3 b4 : Vec Ideal S1024x512 .f32) (e2 : FVec Ideal S1024x512 .f32) (e1 : FVec Ideal S1024x512 .bf16) (q : Fin 1024) :
    kRow (kMean (kOut x1 u1 (kCtxT (kSoftmax (kScore e2 e1)) x2) v1 b3))
        (kMean (kOut x2 u2 (kCtx (kSoftmax (kScore e2 e1)) x1) v2 b4)) (ix2 (0 : Fin 1) q)
      = if h : q.val < 512 then
          Cert.Spec.mean (Cert.Spec.outp (fun t e => x1 (ix2 t e)) (fun e f => u1 (ix2 e f))
            (Cert.Spec.ctxT (Cert.Spec.att (Cert.Spec.score (fun t e => e2 (ix2 t e)) (fun t e => e1 (ix2 t e))))
              (fun t e => x2 (ix2 t e))) (fun e f => v1 (ix2 e f)) (fun t f => b3 (ix2 t f))) ⟨q.val, h⟩
        else
          Cert.Spec.mean (Cert.Spec.outp (fun t e => x2 (ix2 t e)) (fun e f => u2 (ix2 e f))
            (Cert.Spec.ctx (Cert.Spec.att (Cert.Spec.score (fun t e => e2 (ix2 t e)) (fun t e => e1 (ix2 t e))))
              (fun t e => x1 (ix2 t e))) (fun e f => v2 (ix2 e f)) (fun t f => b4 (ix2 t f))) ⟨q.val - 512, by omega⟩ := by
  -- the attention matrix, entry by entry
  have hs : (fun i j => kScore e2 e1 (ix2 i j))
      = Cert.Spec.score (fun t e => e2 (ix2 t e)) (fun t e => e1 (ix2 t e)) :=
    funext fun i => funext fun j => kScore_apply e2 e1 i j
  have ha : (fun i j => kSoftmax (kScore e2 e1) (ix2 i j))
      = Cert.Spec.att (Cert.Spec.score (fun t e => e2 (ix2 t e)) (fun t e => e1 (ix2 t e))) :=
    funext fun i => funext fun j => by rw [kSoftmax_apply, hs]
  -- the two attention products
  have hc1 : (fun t e => kCtxT (kSoftmax (kScore e2 e1)) x2 (ix2 t e))
      = Cert.Spec.ctxT (Cert.Spec.att (Cert.Spec.score (fun t e => e2 (ix2 t e)) (fun t e => e1 (ix2 t e))))
          (fun t e => x2 (ix2 t e)) :=
    funext fun j => funext fun e => by rw [kCtxT_apply, ha]
  have hc2 : (fun t e => kCtx (kSoftmax (kScore e2 e1)) x1 (ix2 t e))
      = Cert.Spec.ctx (Cert.Spec.att (Cert.Spec.score (fun t e => e2 (ix2 t e)) (fun t e => e1 (ix2 t e))))
          (fun t e => x1 (ix2 t e)) :=
    funext fun i => funext fun e => by rw [kCtx_apply, ha]
  -- the two outputs
  have ho1 : (fun t f => kOut x1 u1 (kCtxT (kSoftmax (kScore e2 e1)) x2) v1 b3 (ix2 t f))
      = Cert.Spec.outp (fun t e => x1 (ix2 t e)) (fun e f => u1 (ix2 e f))
          (Cert.Spec.ctxT (Cert.Spec.att (Cert.Spec.score (fun t e => e2 (ix2 t e)) (fun t e => e1 (ix2 t e))))
            (fun t e => x2 (ix2 t e))) (fun e f => v1 (ix2 e f)) (fun t f => b3 (ix2 t f)) :=
    funext fun t => funext fun f => by rw [kOut_apply, hc1]
  have ho2 : (fun t f => kOut x2 u2 (kCtx (kSoftmax (kScore e2 e1)) x1) v2 b4 (ix2 t f))
      = Cert.Spec.outp (fun t e => x2 (ix2 t e)) (fun e f => u2 (ix2 e f))
          (Cert.Spec.ctx (Cert.Spec.att (Cert.Spec.score (fun t e => e2 (ix2 t e)) (fun t e => e1 (ix2 t e))))
            (fun t e => x1 (ix2 t e))) (fun e f => v2 (ix2 e f)) (fun t f => b4 (ix2 t f)) :=
    funext fun t => funext fun f => by rw [kOut_apply, hc2]
  rw [kRow_apply]
  by_cases h : q.val < 512
  · rw [dif_pos h, dif_pos h, kMean_apply, ho1]
  · rw [dif_neg h, dif_neg h, kMean_apply, ho2]

/-- The stored block at (0, 0, q), from the two sequence blocks, the six weight blocks and the four bias blocks. -/
theorem payload_apply (y0 y1 : Vec Ideal S1x1024x512 .bf16) (w2 w3 w4 w5 w6 w7 : Vec Ideal S512x512 .bf16)
    (c8 c9 c10 c11 : Vec Ideal S1024x512 .f32) (q : Fin 1024) :
    k0_pay1 (k0_pay10 (k0_pay2 y0) (k0_pay3 y1) (k0_pay4 w4) (k0_pay5 w5) (k0_pay6 w6) (k0_pay7 w7) c10 c11
        (k0_pay8 y1 w3 c9) (k0_pay9 y0 w2 c8)) (ix3 (0 : Fin 1) (0 : Fin 1) q)
      = Cert.Spec.result (fun t e => y0 (ix3 (0 : Fin 1) t e)) (fun t e => y1 (ix3 (0 : Fin 1) t e))
          (fun e f => w2 (ix2 e f)) (fun e f => w3 (ix2 e f)) (fun e f => w4 (ix2 e f)) (fun e f => w5 (ix2 e f))
          (fun e f => w6 (ix2 e f)) (fun e f => w7 (ix2 e f))
          (fun t f => c8 (ix2 t f)) (fun t f => c9 (ix2 t f)) (fun t f => c10 (ix2 t f)) (fun t f => c11 (ix2 t f)) q := by
  -- the loaded blocks read as matrices
  have hx1 : (fun t e => k0_pay2 y0 (ix2 t e)) = fun t e => y0 (ix3 (0 : Fin 1) t e) :=
    funext fun t => funext fun e => pay2_apply y0 t e
  have hx2 : (fun t e => k0_pay3 y1 (ix2 t e)) = fun t e => y1 (ix3 (0 : Fin 1) t e) :=
    funext fun t => funext fun e => pay3_apply y1 t e
  have hw2 : (fun e f => (shapeCast S512x512 w2 shapeCasts_S512x512_S512x512 : FVec Ideal S512x512 .bf16) (ix2 e f))
      = fun e f => w2 (ix2 e f) := funext fun e => funext fun f => cast512_apply w2 e f
  have hw3 : (fun e f => (shapeCast S512x512 w3 shapeCasts_S512x512_S512x512 : FVec Ideal S512x512 .bf16) (ix2 e f))
      = fun e f => w3 (ix2 e f) := funext fun e => funext fun f => cast512_apply w3 e f
  have hw4 : (fun e f => k0_pay4 w4 (ix2 e f)) = fun e f => w4 (ix2 e f) := funext fun e => funext fun f => pay4_apply w4 e f
  have hw5 : (fun e f => k0_pay5 w5 (ix2 e f)) = fun e f => w5 (ix2 e f) := funext fun e => funext fun f => pay5_apply w5 e f
  have hw6 : (fun e f => k0_pay6 w6 (ix2 e f)) = fun e f => w6 (ix2 e f) := funext fun e => funext fun f => pay6_apply w6 e f
  have hw7 : (fun e f => k0_pay7 w7 (ix2 e f)) = fun e f => w7 (ix2 e f) := funext fun e => funext fun f => pay7_apply w7 e f
  -- the two encodings
  have he2 : (fun t e => k0_pay8 y1 w3 c9 (ix2 t e))
      = Cert.Spec.enc (fun t e => y1 (ix3 (0 : Fin 1) t e)) (fun e f => w3 (ix2 e f)) (fun t f => c9 (ix2 t f)) :=
    funext fun t => funext fun e => by rw [pay8_eq, kEnc_apply, hx2, hw3]
  have he1 : (fun t e => k0_pay9 y0 w2 c8 (ix2 t e))
      = Cert.Spec.enc (fun t e => y0 (ix3 (0 : Fin 1) t e)) (fun e f => w2 (ix2 e f)) (fun t f => c8 (ix2 t f)) :=
    funext fun t => funext fun e => by rw [pay9_eq, truncf_apply, kEnc_apply, hx1, hw2]
  rw [pay1_apply, pay10_eq, row_apply, hx1, hx2, hw4, hw5, hw6, hw7, he1, he2]
  rfl

end Cert.KernelIdeal.KV

end
-- ==== Proof.KValue.lean ====
/-
  What the kernel program leaves in its result, from the frame run.

  The grid has one point per batch element. At point t the body loads block t of the two sequences (the host's
  format change of an argument is the identity on extended reals), the six weight matrices and the four bias matrices
  whole, and stores one row of 1024; that row is written back as block t of a [32, 1, 1024] array, which the host then
  reshapes to [32, 1024]. So entry (b, q) of the result is the specification's result row of batch element b at q.
-/
import proofs.«168137_j42631845380745_1_alg».proof.Proof.Gen.KernelIdeal.Frame
import proofs.«168137_j42631845380745_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The body's stored block, entry by entry, is the specification's result row of the blocks it loaded. -/
def PayloadIsSpec : Prop :=
  ∀ (y0 y1 : Vec Ideal S1x1024x512 .bf16) (w2 w3 w4 w5 w6 w7 : Vec Ideal S512x512 .bf16)
    (c8 c9 c10 c11 : Vec Ideal S1024x512 .f32) (q : Fin 1024),
    k0_pay1 (k0_pay10 (k0_pay2 y0) (k0_pay3 y1) (k0_pay4 w4) (k0_pay5 w5) (k0_pay6 w6) (k0_pay7 w7) c10 c11
        (k0_pay8 y1 w3 c9) (k0_pay9 y0 w2 c8)) (ix3 (0 : Fin 1) (0 : Fin 1) q)
      = Cert.Spec.result (fun t e => y0 (ix3 (0 : Fin 1) t e)) (fun t e => y1 (ix3 (0 : Fin 1) t e))
          (fun e f => w2 (ix2 e f)) (fun e f => w3 (ix2 e f)) (fun e f => w4 (ix2 e f)) (fun e f => w5 (ix2 e f))
          (fun e f => w6 (ix2 e f)) (fun e f => w7 (ix2 e f))
          (fun t f => c8 (ix2 t f)) (fun t f => c9 (ix2 t f)) (fun t f => c10 (ix2 t f)) (fun t f => c11 (ix2 t f)) q

variable (m : (ℓ : Loc nD τ sig) → Buf (Elt Ideal) ℓ) (ρ : Dev nD → PrngReg)

/-- Entry q of the result row of batch element b, from the arguments as launched. -/
def row (c : Dev nD) (b : Fin 32) (q : Fin 1024) : EReal :=
  Cert.Spec.result (fun t e => m ((c : Thread nD τ).loc main_arg0) (ix3 b t e)) (fun t e => m ((c : Thread nD τ).loc main_arg1) (ix3 b t e))
    (fun e f => m ((c : Thread nD τ).loc main_arg2) (ix2 e f)) (fun e f => m ((c : Thread nD τ).loc main_arg3) (ix2 e f))
    (fun e f => m ((c : Thread nD τ).loc main_arg4) (ix2 e f)) (fun e f => m ((c : Thread nD τ).loc main_arg5) (ix2 e f))
    (fun e f => m ((c : Thread nD τ).loc main_arg6) (ix2 e f)) (fun e f => m ((c : Thread nD τ).loc main_arg7) (ix2 e f))
    (fun t f => m ((c : Thread nD τ).loc main_arg8) (ix2 t f)) (fun t f => m ((c : Thread nD τ).loc main_arg9) (ix2 t f))
    (fun t f => m ((c : Thread nD τ).loc main_arg10) (ix2 t f)) (fun t f => m ((c : Thread nD τ).loc main_arg11) (ix2 t f)) q

/-- The region's output array [32, 1, 1024] and the program's result [32, 1024]. -/
def regionOut (c : Dev nD) : S32x1x1024.Idx → Elt Ideal .f32 := fun i => row m c (i 0) (i 2)
def resultArr (c : Dev nD) : S32x1024.Idx → Elt Ideal .f32 := fun i => row m c (i 0) (i 1)

/-! ## The arrays the region finds -/

theorem V_main_v0 (c : Dev nD) : V m c main_v0 = fun i => m ((c : Thread nD τ).loc main_arg0) i := by
  show StableHlo.after hostOps0 (fun b => m (c, b)) (Proc.devRef .tc main_v0) = _
  after_results; rfl
theorem V_main_v1 (c : Dev nD) : V m c main_v1 = fun i => m ((c : Thread nD τ).loc main_arg1) i := by
  show StableHlo.after hostOps0 (fun b => m (c, b)) (Proc.devRef .tc main_v1) = _
  after_results; rfl
theorem V_main_v2 (c : Dev nD) : V m c main_v2 = fun i => m ((c : Thread nD τ).loc main_arg2) i := by
  show StableHlo.after hostOps0 (fun b => m (c, b)) (Proc.devRef .tc main_v2) = _
  after_results; rfl
theorem V_main_v3 (c : Dev nD) : V m c main_v3 = fun i => m ((c : Thread nD τ).loc main_arg3) i := by
  show StableHlo.after hostOps0 (fun b => m (c, b)) (Proc.devRef .tc main_v3) = _
  after_results; rfl
theorem V_main_v4 (c : Dev nD) : V m c main_v4 = fun i => m ((c : Thread nD τ).loc main_arg4) i := by
  show StableHlo.after hostOps0 (fun b => m (c, b)) (Proc.devRef .tc main_v4) = _
  after_results; rfl
theorem V_main_v5 (c : Dev nD) : V m c main_v5 = fun i => m ((c : Thread nD τ).loc main_arg5) i := by
  show StableHlo.after hostOps0 (fun b => m (c, b)) (Proc.devRef .tc main_v5) = _
  after_results; rfl
theorem V_main_v6 (c : Dev nD) : V m c main_v6 = fun i => m ((c : Thread nD τ).loc main_arg6) i := by
  show StableHlo.after hostOps0 (fun b => m (c, b)) (Proc.devRef .tc main_v6) = _
  after_results; rfl
theorem V_main_v7 (c : Dev nD) : V m c main_v7 = fun i => m ((c : Thread nD τ).loc main_arg7) i := by
  show StableHlo.after hostOps0 (fun b => m (c, b)) (Proc.devRef .tc main_v7) = _
  after_results; rfl

/-! ## What a point writes back -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the 32 points: the two sequences and the output move with the point along their first
    axis; every other window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_12.index t (0 : Fin 3) = t.val ∧ win0_12.index t (1 : Fin 3) = 0 ∧ win0_12.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- The batch element of a grid point. -/
def batch (t : Fin cfg0.N) : Fin 32 := ⟨t.val, by have h : t.val < grid0.N := t.isLt; have := N_0; omega⟩

/-! ## The blocks a point loads, entry by entry -/

theorem seq0_entry (c : Dev nD) (t : Fin cfg0.N) (t' : Fin 1024) (e : Fin 512) :
    iblk m c 0 t (ix3 (0 : Fin 1) t' e) = m ((c : Thread nD τ).loc main_arg0) (ix3 (batch t) t' e) := by
  show V m c main_v0 (((cfg0.win 0).blk t).view.emb (ix3 (0 : Fin 1) t' e)) = _
  rw [V_main_v0]
  obtain ⟨a0, a1, a2, b0, b1, b2, -⟩ := idx_facts t
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 1024 + 1 * t'.val = t'.val; omega
  | ⟨2, _⟩ => show win0_0.index t (2 : Fin 3) * 512 + 1 * e.val = e.val; omega

theorem seq1_entry (c : Dev nD) (t : Fin cfg0.N) (t' : Fin 1024) (e : Fin 512) :
    iblk m c 1 t (ix3 (0 : Fin 1) t' e) = m ((c : Thread nD τ).loc main_arg1) (ix3 (batch t) t' e) := by
  show V m c main_v1 (((cfg0.win 1).blk t).view.emb (ix3 (0 : Fin 1) t' e)) = _
  rw [V_main_v1]
  obtain ⟨a0, a1, a2, b0, b1, b2, -⟩ := idx_facts t
  refine congrArg (m ((c : Thread nD τ).loc main_arg1)) (funext fun a => Fin.ext ?_)
  match a with
  | ⟨0, _⟩ => show win0_1.index t (0 : Fin 3) * 1 + 1 * 0 = t.val; omega
  | ⟨1, _⟩ => show win0_1.index t (1 : Fin 3) * 1024 + 1 * t'.val = t'.val; omega
  | ⟨2, _⟩ => show win0_1.index t (2 : Fin 3) * 512 + 1 * e.val = e.val; omega

theorem mat2_entry (c : Dev nD) (t : Fin cfg0.N) (p : Fin 512) (f : Fin 512) :
    iblk m c 2 t (ix2 p f) = m ((c : Thread nD τ).loc main_arg2) (ix2 p f) := by
  show V m c main_v2 (((cfg0.win 2).blk t).view.emb (ix2 p f)) = _
  rw [V_main_v2]
  have hf := idx_facts t
  refine congrArg (m ((c : Thread nD τ).loc main_arg2)) (funext fun a => Fin.ext ?_)
  match a with
  | ⟨0, _⟩ => show win0_2.index t (0 : Fin 2) * 512 + 1 * p.val = p.val; omega
  | ⟨1, _⟩ => show win0_2.index t (1 : Fin 2) * 512 + 1 * f.val = f.val; omega

theorem mat3_entry (c : Dev nD) (t : Fin cfg0.N) (p : Fin 512) (f : Fin 512) :
    iblk m c 3 t (ix2 p f) = m ((c : Thread nD τ).loc main_arg3) (ix2 p f) := by
  show V m c main_v3 (((cfg0.win 3).blk t).view.emb (ix2 p f)) = _
  rw [V_main_v3]
  have hf := idx_facts t
  refine congrArg (m ((c : Thread nD τ).loc main_arg3)) (funext fun a => Fin.ext ?_)
  match a with
  | ⟨0, _⟩ => show win0_3.index t (0 : Fin 2) * 512 + 1 * p.val = p.val; omega
  | ⟨1, _⟩ => show win0_3.index t (1 : Fin 2) * 512 + 1 * f.val = f.val; omega

theorem mat4_entry (c : Dev nD) (t : Fin cfg0.N) (p : Fin 512) (f : Fin 512) :
    iblk m c 4 t (ix2 p f) = m ((c : Thread nD τ).loc main_arg4) (ix2 p f) := by
  show V m c main_v4 (((cfg0.win 4).blk t).view.emb (ix2 p f)) = _
  rw [V_main_v4]
  have hf := idx_facts t
  refine congrArg (m ((c : Thread nD τ).loc main_arg4)) (funext fun a => Fin.ext ?_)
  match a with
  | ⟨0, _⟩ => show win0_4.index t (0 : Fin 2) * 512 + 1 * p.val = p.val; omega
  | ⟨1, _⟩ => show win0_4.index t (1 : Fin 2) * 512 + 1 * f.val = f.val; omega

theorem mat5_entry (c : Dev nD) (t : Fin cfg0.N) (p : Fin 512) (f : Fin 512) :
    iblk m c 5 t (ix2 p f) = m ((c : Thread nD τ).loc main_arg5) (ix2 p f) := by
  show V m c main_v5 (((cfg0.win 5).blk t).view.emb (ix2 p f)) = _
  rw [V_main_v5]
  have hf := idx_facts t
  refine congrArg (m ((c : Thread nD τ).loc main_arg5)) (funext fun a => Fin.ext ?_)
  match a with
  | ⟨0, _⟩ => show win0_5.index t (0 : Fin 2) * 512 + 1 * p.val = p.val; omega
  | ⟨1, _⟩ => show win0_5.index t (1 : Fin 2) * 512 + 1 * f.val = f.val; omega

theorem mat6_entry (c : Dev nD) (t : Fin cfg0.N) (p : Fin 512) (f : Fin 512) :
    iblk m c 6 t (ix2 p f) = m ((c : Thread nD τ).loc main_arg6) (ix2 p f) := by
  show V m c main_v6 (((cfg0.win 6).blk t).view.emb (ix2 p f)) = _
  rw [V_main_v6]
  have hf := idx_facts t
  refine congrArg (m ((c : Thread nD τ).loc main_arg6)) (funext fun a => Fin.ext ?_)
  match a with
  | ⟨0, _⟩ => show win0_6.index t (0 : Fin 2) * 512 + 1 * p.val = p.val; omega
  | ⟨1, _⟩ => show win0_6.index t (1 : Fin 2) * 512 + 1 * f.val = f.val; omega

theorem mat7_entry (c : Dev nD) (t : Fin cfg0.N) (p : Fin 512) (f : Fin 512) :
    iblk m c 7 t (ix2 p f) = m ((c : Thread nD τ).loc main_arg7) (ix2 p f) := by
  show V m c main_v7 (((cfg0.win 7).blk t).view.emb (ix2 p f)) = _
  rw [V_main_v7]
  have hf := idx_facts t
  refine congrArg (m ((c : Thread nD τ).loc main_arg7)) (funext fun a => Fin.ext ?_)
  match a with
  | ⟨0, _⟩ => show win0_7.index t (0 : Fin 2) * 512 + 1 * p.val = p.val; omega
  | ⟨1, _⟩ => show win0_7.index t (1 : Fin 2) * 512 + 1 * f.val = f.val; omega

theorem mat8_entry (c : Dev nD) (t : Fin cfg0.N) (p : Fin 1024) (f : Fin 512) :
    iblk m c 8 t (ix2 p f) = m ((c : Thread nD τ).loc main_arg8) (ix2 p f) := by
  show V m c main_arg8 (((cfg0.win 8).blk t).view.emb (ix2 p f)) = _
  rw [V_main_arg8]
  have hf := idx_facts t
  refine congrArg (m ((c : Thread nD τ).loc main_arg8)) (funext fun a => Fin.ext ?_)
  match a with
  | ⟨0, _⟩ => show win0_8.index t (0 : Fin 2) * 1024 + 1 * p.val = p.val; omega
  | ⟨1, _⟩ => show win0_8.index t (1 : Fin 2) * 512 + 1 * f.val = f.val; omega

theorem mat9_entry (c : Dev nD) (t : Fin cfg0.N) (p : Fin 1024) (f : Fin 512) :
    iblk m c 9 t (ix2 p f) = m ((c : Thread nD τ).loc main_arg9) (ix2 p f) := by
  show V m c main_arg9 (((cfg0.win 9).blk t).view.emb (ix2 p f)) = _
  rw [V_main_arg9]
  have hf := idx_facts t
  refine congrArg (m ((c : Thread nD τ).loc main_arg9)) (funext fun a => Fin.ext ?_)
  match a with
  | ⟨0, _⟩ => show win0_9.index t (0 : Fin 2) * 1024 + 1 * p.val = p.val; omega
  | ⟨1, _⟩ => show win0_9.index t (1 : Fin 2) * 512 + 1 * f.val = f.val; omega

theorem mat10_entry (c : Dev nD) (t : Fin cfg0.N) (p : Fin 1024) (f : Fin 512) :
    iblk m c 10 t (ix2 p f) = m ((c : Thread nD τ).loc main_arg10) (ix2 p f) := by
  show V m c main_arg10 (((cfg0.win 10).blk t).view.emb (ix2 p f)) = _
  rw [V_main_arg10]
  have hf := idx_facts t
  refine congrArg (m ((c : Thread nD τ).loc main_arg10)) (funext fun a => Fin.ext ?_)
  match a with
  | ⟨0, _⟩ => show win0_10.index t (0 : Fin 2) * 1024 + 1 * p.val = p.val; omega
  | ⟨1, _⟩ => show win0_10.index t (1 : Fin 2) * 512 + 1 * f.val = f.val; omega

theorem mat11_entry (c : Dev nD) (t : Fin cfg0.N) (p : Fin 1024) (f : Fin 512) :
    iblk m c 11 t (ix2 p f) = m ((c : Thread nD τ).loc main_arg11) (ix2 p f) := by
  show V m c main_arg11 (((cfg0.win 11).blk t).view.emb (ix2 p f)) = _
  rw [V_main_arg11]
  have hf := idx_facts t
  refine congrArg (m ((c : Thread nD τ).loc main_arg11)) (funext fun a => Fin.ext ?_)
  match a with
  | ⟨0, _⟩ => show win0_11.index t (0 : Fin 2) * 1024 + 1 * p.val = p.val; omega
  | ⟨1, _⟩ => show win0_11.index t (1 : Fin 2) * 512 + 1 * f.val = f.val; omega

/-- WHAT POINT t WRITES BACK is block t of the region's output array. -/
theorem flushed_eq (hpay : PayloadIsSpec) (c : Dev nD) (t : Fin cfg0.N) :
    (dats m 0 c).flushed 12 t = ((cfg0.win 12).blk t).view.read (Elt Ideal) (regionOut m c) := by
  show (cfg0.win 12).cut (grid0.coords t) ((dats m 0 c).after 12 t) = _
  rw [after0_12]
  unfold out0_12
  rw [View.canon_unit_zero zero3]
  simp only [View.ld_unit_zero (S := S1x1024x512) zero3, View.ld_unit_zero (S := S512x512) zero2, View.ld_unit_zero (S := S1024x512) zero2]
  funext y
  show k0_pay1 (F := Ideal) _ y = regionOut m c (((cfg0.win 12).blk t).view.emb y)
  obtain ⟨-, -, -, -, -, -, o0, o1, o2, -⟩ := idx_facts t
  have hy : y = ix3 (0 : Fin 1) (0 : Fin 1) (y 2) := funext fun a => Fin.ext (by
    match a with
    | ⟨0, _⟩ => show (y 0).val = 0; have h : (y 0).val < 1 := (y 0).isLt; omega
    | ⟨1, _⟩ => show (y 1).val = 0; have h : (y 1).val < 1 := (y 1).isLt; omega
    | ⟨2, _⟩ => rfl)
  have hb : ((cfg0.win 12).blk t).view.emb y 0 = batch t := Fin.ext (by
    show win0_12.index t (0 : Fin 3) * 1 + 1 * (y 0).val = t.val; have h : (y 0).val < 1 := (y 0).isLt; omega)
  have hq : ((cfg0.win 12).blk t).view.emb y 2 = y 2 := Fin.ext (by
    show win0_12.index t (2 : Fin 3) * 1024 + 1 * (y 2).val = (y 2).val; omega)
  refine (congrArg _ hy).trans ?_
  refine (hpay (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (y 2)).trans ?_
  unfold regionOut row
  rw [hb, hq]
  simp only [seq0_entry, seq1_entry, mat2_entry, mat3_entry, mat4_entry, mat5_entry, mat6_entry, mat7_entry, mat8_entry,
    mat9_entry, mat10_entry, mat11_entry]

/-! ## The region's output array after the run -/

/-- An index of the output array is in point t's block iff each coordinate is in the block's range on its axis. -/
theorem mem_block (t : Fin cfg0.N) (i : S32x1x1024.Idx) :
    i ∈ ((cfg0.win 12).blk t).view.set ↔ ∀ a : Fin 3, win0_12.index t a * S1x1x1024.size a ≤ (i a).val
      ∧ (i a).val < win0_12.index t a * S1x1x1024.size a + S1x1x1024.size a := by
  show i ∈ ((View.whole main_v8).slice (win0_12.rect t)).set ↔ _
  rw [View.set_slice_whole, Rect.mem_set_unit]
  exact Iff.rfl

/-- Every index of the output array lies in the block of the point of its batch element. -/
theorem covered (i : S32x1x1024.Idx) : ∃ t : Fin cfg0.N, (cfg0.win 12).flush t = true ∧ i ∈ ((cfg0.win 12).blk t).view.set := by
  have h0 : (i 0).val < 32 := (i 0).isLt
  have h1 : (i 1).val < 1 := (i 1).isLt
  have h2 : (i 2).val < 1024 := (i 2).isLt
  have hN : (i 0).val < grid0.N := by have := N_0; omega
  refine ⟨⟨(i 0).val, hN⟩, flush0_12 _, ?_⟩
  rw [mem_block]
  obtain ⟨-, -, -, -, -, -, o0, o1, o2, -⟩ := idx_facts ⟨(i 0).val, hN⟩
  intro a
  match a with
  | ⟨0, _⟩ => show win0_12.index ⟨(i 0).val, hN⟩ (0 : Fin 3) * 1 ≤ (i 0).val ∧ (i 0).val < win0_12.index ⟨(i 0).val, hN⟩ (0 : Fin 3) * 1 + 1; simp only at o0; omega
  | ⟨1, _⟩ => show win0_12.index ⟨(i 0).val, hN⟩ (1 : Fin 3) * 1 ≤ (i 1).val ∧ (i 1).val < win0_12.index ⟨(i 0).val, hN⟩ (1 : Fin 3) * 1 + 1; omega
  | ⟨2, _⟩ => show win0_12.index ⟨(i 0).val, hN⟩ (2 : Fin 3) * 1024 ≤ (i 2).val ∧ (i 2).val < win0_12.index ⟨(i 0).val, hN⟩ (2 : Fin 3) * 1024 + 1024; omega

/-- THE OUTPUT ARRAY after the run: row b of it is the result row of batch element b. -/
theorem region_final (hpay : PayloadIsSpec) (c : Dev nD) : (dats m 0 c).arrAt 12 cfg0.N = regionOut m c :=
  (dats m 0 c).arrAt_eq_of_cover 12 (regionOut m c) (fun t _ => flushed_eq m hpay c t) covered

/-! ## The host's reshape after the region, and the run -/

/-- The program's result after the host's reshape of the output array. -/
theorem tail_result (hpay : PayloadIsSpec) (c : Dev nD) :
    Pipeline.afterTail₀ cfgs (dats m) 0 (V0 m) [hostOps1] c main_v9 = resultArr m c := by
  unfold Pipeline.afterTail₀
  show StableHlo.after hostOps1 _ (Proc.devRef .tc main_v9) = _
  after_results
  funext i
  show shapeCast S32x1024 (Pipeline.withArrays (cfgs 0).spec c (V0 m c) (fun w => (dats m 0 c).arrAt w (cfgs 0).N)
    (Proc.tc.devRef main_v8)) shapeCasts_S32x1x1024_S32x1024 i = _
  have hw : Pipeline.withArrays (cfgs 0).spec c (V0 m c) (fun w => (dats m 0 c).arrAt w (cfgs 0).N) (Proc.tc.devRef main_v8)
      = regionOut m c :=
    (Pipeline.withArrays_arr spec0 launch0.win.arr_inj c _ _ 12).trans (region_final m hpay c)
  rw [hw]
  rw [shapeCast_apply (regionOut m c) shapeCasts_S32x1x1024_S32x1024 i (ix3 (i 0) (0 : Fin 1) (i 1)) (by
    rw [Shape.rowMajor_val_three, Shape.rowMajor_val_two]
    show ((i 0).val * 1 + 0) * 1024 + (i 1).val = (i 0).val * 1024 + (i 1).val
    omega)]
  rfl

/-- THE RUN: every weakly fair execution of the kernel program ends with its result at the result rows of the 32 batch
    elements and its arguments unchanged. -/
theorem kernel_run (hpay : PayloadIsSpec) :
    θ_run defs (onTc (τ := τ) (main (F := Ideal))) ⟨m, fun _ => 0, ρ⟩ (fun r => ∀ c : Dev nD,
      r.2.mem ((c.tc : Thread nD τ).loc main_v9) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v9 (Pipeline.mem_restRefs_of main_v9 (by decide) (by decide))).trans (tail_result m hpay c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.KernelIdeal.KVal

end
-- ==== Proof.RefSoftmax.lean ====
/-
  The reference's encodings, scores and softmax read entry by entry, batch element by batch element.

  At batch element b the two encodings are relu (x W + bias) of the b-th slabs of the inputs, the scores contract
  their last coordinates, and the softmax is taken along the last coordinate: the maximum from minus infinity, the
  shifted exponentials, their sum, the quotient.
-/
import proofs.«168137_j42631845380745_1_alg».proof.Proof.RefRead
import proofs.«168137_j42631845380745_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RV

open Idealize.ShloMosaic Idealize.ShloMosaic.ValueIdx Cert.ReferenceIdeal Cert.ReferenceIdeal.Gen Cert.ReferenceIdeal.Read

/-! The indices the reference's operations read, at a batch element's coordinates. -/

/-- The first product reads its left operand at (b, t, k) … -/
private theorem lidx_v0 (b : Fin 32) (t : Fin 1024) (f k : Fin 512) : lidx_main_v0 (ix3 b t f) k = ix3 b t k :=
  funext fun a => Fin.ext (by match a with | ⟨0, _⟩ => rfl | ⟨1, _⟩ => rfl | ⟨2, _⟩ => rfl)
/-- … and its right operand at (k, f). -/
private theorem ridx_v0 (b : Fin 32) (t : Fin 1024) (f k : Fin 512) : ridx_main_v0 (ix3 b t f) k = ix2 k f :=
  funext fun a => Fin.ext (by match a with | ⟨0, _⟩ => rfl | ⟨1, _⟩ => rfl)
/-- The first bias, repeated over the batch, is read at (t, f). -/
private theorem idx_v1_v2 (b : Fin 32) (t : Fin 1024) (f : Fin 512) : idx_main_v1 (idx_main_v2 (ix3 b t f)) = ix2 t f :=
  funext fun a => Fin.ext (by match a with | ⟨0, _⟩ => rfl | ⟨1, _⟩ => rfl)
/-- The second product reads its left operand at (b, t, k) … -/
private theorem lidx_v5 (b : Fin 32) (t : Fin 1024) (f k : Fin 512) : lidx_main_v5 (ix3 b t f) k = ix3 b t k :=
  funext fun a => Fin.ext (by match a with | ⟨0, _⟩ => rfl | ⟨1, _⟩ => rfl | ⟨2, _⟩ => rfl)
/-- … and its right operand at (k, f). -/
private theorem ridx_v5 (b : Fin 32) (t : Fin 1024) (f k : Fin 512) : ridx_main_v5 (ix3 b t f) k = ix2 k f :=
  funext fun a => Fin.ext (by match a with | ⟨0, _⟩ => rfl | ⟨1, _⟩ => rfl)
/-- The second bias, repeated over the batch, is read at (t, f). -/
private theorem idx_v6_v7 (b : Fin 32) (t : Fin 1024) (f : Fin 512) : idx_main_v6 (idx_main_v7 (ix3 b t f)) = ix2 t f :=
  funext fun a => Fin.ext (by match a with | ⟨0, _⟩ => rfl | ⟨1, _⟩ => rfl)

/-- The first encoding at (b, t, f). -/
theorem v4_apply (x0 : (⟨S32x1024x512, .f32⟩ : BufTy).Contents (Elt Ideal)) (x2 : (⟨S512x512, .f32⟩ : BufTy).Contents (Elt Ideal)) (x8 : (⟨S1024x512, .f32⟩ : BufTy).Contents (Elt Ideal)) (b : Fin 32) (t : Fin 1024) (f : Fin 512) :
    val_main_v4 (F := Ideal) x0 x2 x8 (ix3 b t f) = Cert.Spec.enc (fun t e => x0 (ix3 b t e)) (fun e f => x2 (ix2 e f)) (fun e f => x8 (ix2 e f)) t f := by
  rw [val_main_v4_apply, val_main_v3_apply, val_main_v0_apply, val_main_v2_apply, val_main_v1_apply,
    val_main_call0_v0_apply, val_main_call0_cst_apply, idx_v1_v2]
  simp only [lidx_v0, ridx_v0, Ideal.addf_def, Ideal.maximumf_def, Ideal.ofBits_def]
  rfl

/-- The second encoding at (b, t, f). -/
theorem v9_apply (x1 : (⟨S32x1024x512, .f32⟩ : BufTy).Contents (Elt Ideal)) (x3 : (⟨S512x512, .f32⟩ : BufTy).Contents (Elt Ideal)) (x9 : (⟨S1024x512, .f32⟩ : BufTy).Contents (Elt Ideal)) (b : Fin 32) (t : Fin 1024) (f : Fin 512) :
    val_main_v9 (F := Ideal) x1 x3 x9 (ix3 b t f) = Cert.Spec.enc (fun t e => x1 (ix3 b t e)) (fun e f => x3 (ix2 e f)) (fun e f => x9 (ix2 e f)) t f := by
  rw [val_main_v9_apply, val_main_v8_apply, val_main_v5_apply, val_main_v7_apply, val_main_v6_apply,
    val_main_call1_v0_apply, val_main_call1_cst_apply, idx_v6_v7]
  simp only [lidx_v5, ridx_v5, Ideal.addf_def, Ideal.maximumf_def, Ideal.ofBits_def]
  rfl

/-- The scores read the second encoding at (b, i, k) … -/
private theorem lidx_v10 (b : Fin 32) (i j : Fin 1024) (k : Fin 512) : lidx_main_v10 (ix3 b i j) k = ix3 b i k :=
  funext fun a => Fin.ext (by match a with | ⟨0, _⟩ => rfl | ⟨1, _⟩ => rfl | ⟨2, _⟩ => rfl)
/-- … and the first encoding at (b, j, k). -/
private theorem ridx_v10 (b : Fin 32) (i j : Fin 1024) (k : Fin 512) : ridx_main_v10 (ix3 b i j) k = ix3 b j k :=
  funext fun a => Fin.ext (by match a with | ⟨0, _⟩ => rfl | ⟨1, _⟩ => rfl | ⟨2, _⟩ => rfl)
/-- The row index (b, i) with the coordinate k put back on the last axis is (b, i, k). -/
private theorem lift_last (h : S32x1024x1024.Reduces [2] S32x1024) (b : Fin 32) (i : Fin 1024)
    (k : Fin (S32x1024x1024.size 2)) : h.lift (ix2 b i) k = ix3 b i (⟨k.val, k.isLt⟩ : Fin 1024) :=
  funext fun a => Fin.ext (by match a with | ⟨0, _⟩ => rfl | ⟨1, _⟩ => rfl | ⟨2, _⟩ => rfl)
/-- The row maximum, repeated along the row, is read at (b, i). -/
private theorem idx_v14_v15 (b : Fin 32) (i j : Fin 1024) : idx_main_v14 (idx_main_v15 (ix3 b i j)) = ix2 b i :=
  funext fun a => Fin.ext (by match a with | ⟨0, _⟩ => rfl | ⟨1, _⟩ => rfl)
/-- The row sum reads the exponentials at (b, i, k). -/
private theorem idx_v18 (b : Fin 32) (i k : Fin 1024) : idx_main_v18 (ix2 b i) k = ix3 b i k :=
  funext fun a => Fin.ext (by match a with | ⟨0, _⟩ => rfl | ⟨1, _⟩ => rfl | ⟨2, _⟩ => rfl)
/-- The row sum, repeated along the row, is read at (b, i). -/
private theorem idx_v19_v20 (b : Fin 32) (i j : Fin 1024) : idx_main_v19 (idx_main_v20 (ix3 b i j)) = ix2 b i :=
  funext fun a => Fin.ext (by match a with | ⟨0, _⟩ => rfl | ⟨1, _⟩ => rfl)

/-- The scores at (b, i, j). -/
theorem v10_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal)) (b : Fin 32) (i j : Fin 1024) :
    val_main_v10 (F := Ideal) x0 x1 x2 x3 x8 x9 (ix3 b i j) = (Cert.Spec.score (Cert.Spec.enc (fun t e => x1 (ix3 b t e)) (fun e f => x3 (ix2 e f)) (fun e f => x9 (ix2 e f))) (Cert.Spec.enc (fun t e => x0 (ix3 b t e)) (fun e f => x2 (ix2 e f)) (fun e f => x8 (ix2 e f)))) i j := by
  rw [val_main_v10_apply]
  unfold Cert.Spec.score
  refine Finset.sum_congr rfl fun k _ => ?_
  rw [lidx_v10, ridx_v10, v9_apply, v4_apply]

/-- The row maxima at (b, i). -/
theorem v13_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal)) (b : Fin 32) (i : Fin 1024) :
    val_main_v13 (F := Ideal) x0 x1 x2 x3 x8 x9 (ix2 b i) = Cert.Spec.rowmax (Cert.Spec.score (Cert.Spec.enc (fun t e => x1 (ix3 b t e)) (fun e f => x3 (ix2 e f)) (fun e f => x9 (ix2 e f))) (Cert.Spec.enc (fun t e => x0 (ix3 b t e)) (fun e f => x2 (ix2 e f)) (fun e f => x8 (ix2 e f)))) i := by
  have h : S32x1024x1024.Reduces [2] S32x1024 := by decide
  rw [val_main_v13_apply, val_main_v12_apply, val_main_cst_0_apply]
  unfold val_main_v11
  rw [Host.reduce_eq_fold_single FloatOps.maximumf _ _ _ h h_S_ (ix2 b i), val_main_cst_apply]
  unfold Cert.Spec.rowmax
  -- the fold over the last axis, entry by entry the scores of row i
  refine congrArg (max (Ideal.ofBits .f32 0xFF800000#32)) (Finset.fold_congr fun k _ => ?_)
  show val_main_v10 (F := Ideal) x0 x1 x2 x3 x8 x9 (h.lift (ix2 b i) k) = _
  rw [lift_last, v10_apply]
  rfl

/-- The shifted exponentials at (b, i, j). -/
theorem v17_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal)) (b : Fin 32) (i j : Fin 1024) :
    val_main_v17 (F := Ideal) x0 x1 x2 x3 x8 x9 (ix3 b i j) = Cert.Spec.ex (Cert.Spec.score (Cert.Spec.enc (fun t e => x1 (ix3 b t e)) (fun e f => x3 (ix2 e f)) (fun e f => x9 (ix2 e f))) (Cert.Spec.enc (fun t e => x0 (ix3 b t e)) (fun e f => x2 (ix2 e f)) (fun e f => x8 (ix2 e f)))) i j := by
  rw [val_main_v17_apply, val_main_v16_apply, val_main_v15_apply, val_main_v14_apply, idx_v14_v15, v10_apply, v13_apply]
  rfl

/-- The row sums of the shifted exponentials at (b, i): the sum from the zero word is the plain sum. -/
private theorem v18_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal)) (b : Fin 32) (i : Fin 1024) :
    val_main_v18 (F := Ideal) x0 x1 x2 x3 x8 x9 (ix2 b i) = ∑ j' : Fin 1024, Cert.Spec.ex (Cert.Spec.score (Cert.Spec.enc (fun t e => x1 (ix3 b t e)) (fun e f => x3 (ix2 e f)) (fun e f => x9 (ix2 e f))) (Cert.Spec.enc (fun t e => x0 (ix3 b t e)) (fun e f => x2 (ix2 e f)) (fun e f => x8 (ix2 e f)))) i j' := by
  rw [val_main_v18_apply, val_main_cst_1_apply, Ideal.ofBits_def, Ideal.ofBits_zero_f32, zero_add]
  refine Finset.sum_congr rfl fun k _ => ?_
  rw [idx_v18, v17_apply]

/-- The softmax at (b, i, j). -/
theorem v21_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal)) (b : Fin 32) (i j : Fin 1024) :
    val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j := by
  rw [val_main_v21_apply, val_main_v20_apply, val_main_v19_apply, idx_v19_v20, v17_apply, v18_apply]
  rfl

end Cert.ReferenceIdeal.RV

end
-- ==== Proof.RefOut.lean ====
/-
  The reference's attention products, output matrices, column means and final row read entry by entry, batch element
  by batch element, given its softmax.

  At batch element b the first attention product contracts the softmax's first matrix coordinate with the rows of the
  second input, the second contracts its second coordinate with the rows of the first input; each output matrix is
  relu (x U + c V + bias); the means run over the 1024 rows; the row joins the two halves.
-/
import proofs.«168137_j42631845380745_1_alg».proof.Proof.RefRead
import proofs.«168137_j42631845380745_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RV

open Idealize.ShloMosaic Idealize.ShloMosaic.ValueIdx Cert.ReferenceIdeal Cert.ReferenceIdeal.Gen Cert.ReferenceIdeal.Read

/-! The index of each operand of each product, bias and sum, written by coordinates. -/

/-- The first attention product at (b, j, e) reads the softmax at (b, k, j) … -/
private theorem lidx22 (b : Fin 32) (j : Fin 1024) (e : Fin 512) (k : Fin 1024) :
    lidx_main_v22 (ix3 b j e) k = ix3 b k j := funext fun a => Fin.ext (by match a with | ⟨0, _⟩ => rfl | ⟨1, _⟩ => rfl | ⟨2, _⟩ => rfl)
/-- … and the second input at (b, k, e). -/
private theorem ridx22 (b : Fin 32) (j : Fin 1024) (e : Fin 512) (k : Fin 1024) :
    ridx_main_v22 (ix3 b j e) k = ix3 b k e := funext fun a => Fin.ext (by match a with | ⟨0, _⟩ => rfl | ⟨1, _⟩ => rfl | ⟨2, _⟩ => rfl)
/-- The second attention product at (b, i, e) reads the softmax at (b, i, k) … -/
private theorem lidx23 (b : Fin 32) (i : Fin 1024) (e : Fin 512) (k : Fin 1024) :
    lidx_main_v23 (ix3 b i e) k = ix3 b i k := funext fun a => Fin.ext (by match a with | ⟨0, _⟩ => rfl | ⟨1, _⟩ => rfl | ⟨2, _⟩ => rfl)
/-- … and the first input at (b, k, e). -/
private theorem ridx23 (b : Fin 32) (i : Fin 1024) (e : Fin 512) (k : Fin 1024) :
    ridx_main_v23 (ix3 b i e) k = ix3 b k e := funext fun a => Fin.ext (by match a with | ⟨0, _⟩ => rfl | ⟨1, _⟩ => rfl | ⟨2, _⟩ => rfl)
/-- A product with a weight matrix at (b, t, f) reads its left factor at (b, t, k) … -/
private theorem lidx24 (b : Fin 32) (t : Fin 1024) (f : Fin 512) (k : Fin 512) :
    lidx_main_v24 (ix3 b t f) k = ix3 b t k := funext fun a => Fin.ext (by match a with | ⟨0, _⟩ => rfl | ⟨1, _⟩ => rfl | ⟨2, _⟩ => rfl)
/-- … and the weight at (k, f). -/
private theorem ridx24 (b : Fin 32) (t : Fin 1024) (f : Fin 512) (k : Fin 512) :
    ridx_main_v24 (ix3 b t f) k = ix2 k f := funext fun a => Fin.ext (by match a with | ⟨0, _⟩ => rfl | ⟨1, _⟩ => rfl)
/-- A product with a weight matrix at (b, t, f) reads its left factor at (b, t, k) … -/
private theorem lidx25 (b : Fin 32) (t : Fin 1024) (f : Fin 512) (k : Fin 512) :
    lidx_main_v25 (ix3 b t f) k = ix3 b t k := funext fun a => Fin.ext (by match a with | ⟨0, _⟩ => rfl | ⟨1, _⟩ => rfl | ⟨2, _⟩ => rfl)
/-- … and the weight at (k, f). -/
private theorem ridx25 (b : Fin 32) (t : Fin 1024) (f : Fin 512) (k : Fin 512) :
    ridx_main_v25 (ix3 b t f) k = ix2 k f := funext fun a => Fin.ext (by match a with | ⟨0, _⟩ => rfl | ⟨1, _⟩ => rfl)
/-- A product with a weight matrix at (b, t, f) reads its left factor at (b, t, k) … -/
private theorem lidx31 (b : Fin 32) (t : Fin 1024) (f : Fin 512) (k : Fin 512) :
    lidx_main_v31 (ix3 b t f) k = ix3 b t k := funext fun a => Fin.ext (by match a with | ⟨0, _⟩ => rfl | ⟨1, _⟩ => rfl | ⟨2, _⟩ => rfl)
/-- … and the weight at (k, f). -/
private theorem ridx31 (b : Fin 32) (t : Fin 1024) (f : Fin 512) (k : Fin 512) :
    ridx_main_v31 (ix3 b t f) k = ix2 k f := funext fun a => Fin.ext (by match a with | ⟨0, _⟩ => rfl | ⟨1, _⟩ => rfl)
/-- A product with a weight matrix at (b, t, f) reads its left factor at (b, t, k) … -/
private theorem lidx32 (b : Fin 32) (t : Fin 1024) (f : Fin 512) (k : Fin 512) :
    lidx_main_v32 (ix3 b t f) k = ix3 b t k := funext fun a => Fin.ext (by match a with | ⟨0, _⟩ => rfl | ⟨1, _⟩ => rfl | ⟨2, _⟩ => rfl)
/-- … and the weight at (k, f). -/
private theorem ridx32 (b : Fin 32) (t : Fin 1024) (f : Fin 512) (k : Fin 512) :
    ridx_main_v32 (ix3 b t f) k = ix2 k f := funext fun a => Fin.ext (by match a with | ⟨0, _⟩ => rfl | ⟨1, _⟩ => rfl)
/-- The bias spread over the batch reads, at (b, t, f), the bias at (t, f). -/
private theorem idx27_28 (b : Fin 32) (t : Fin 1024) (f : Fin 512) :
    idx_main_v27 (idx_main_v28 (ix3 b t f)) = ix2 t f := funext fun a => Fin.ext (by match a with | ⟨0, _⟩ => rfl | ⟨1, _⟩ => rfl)
private theorem idx34_35 (b : Fin 32) (t : Fin 1024) (f : Fin 512) :
    idx_main_v34 (idx_main_v35 (ix3 b t f)) = ix2 t f := funext fun a => Fin.ext (by match a with | ⟨0, _⟩ => rfl | ⟨1, _⟩ => rfl)
/-- The sum over the rows at (b, f) reads its operand at (b, k, f). -/
private theorem idx38 (b : Fin 32) (f : Fin 512) (k : Fin 1024) :
    idx_main_v38 (ix2 b f) k = ix3 b k f := funext fun a => Fin.ext (by match a with | ⟨0, _⟩ => rfl | ⟨1, _⟩ => rfl | ⟨2, _⟩ => rfl)
private theorem idx41 (b : Fin 32) (f : Fin 512) (k : Fin 1024) :
    idx_main_v41 (ix2 b f) k = ix3 b k f := funext fun a => Fin.ext (by match a with | ⟨0, _⟩ => rfl | ⟨1, _⟩ => rfl | ⟨2, _⟩ => rfl)

/-- The first attention product at (b, j, e), given the softmax. -/
theorem v22_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (j : Fin 1024) (e : Fin 512) :
    val_main_v22 (F := Ideal) x0 x1 x2 x3 x8 x9 (ix3 b j e) = Cert.Spec.ctxT (Cert.Spec.attn (fun t e => x0 (ix3 b t e)) (fun t e => x1 (ix3 b t e)) (fun e f => x2 (ix2 e f)) (fun e f => x3 (ix2 e f)) (fun e f => x8 (ix2 e f)) (fun e f => x9 (ix2 e f))) (fun t e => x1 (ix3 b t e)) j e := by
  rw [val_main_v22_apply]
  unfold Cert.Spec.ctxT
  exact Finset.sum_congr rfl fun k _ => by rw [lidx22, ridx22, h21]

/-- The second attention product at (b, i, e), given the softmax. -/
theorem v23_apply (x0 x1 : (⟨S32x1024x512, .f32⟩ : BufTy).Contents (Elt Ideal)) (x2 x3 : (⟨S512x512, .f32⟩ : BufTy).Contents (Elt Ideal)) (x8 x9 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (i : Fin 1024) (e : Fin 512) :
    val_main_v23 (F := Ideal) x0 x1 x2 x3 x8 x9 (ix3 b i e) = Cert.Spec.ctx (Cert.Spec.attn (fun t e => x0 (ix3 b t e)) (fun t e => x1 (ix3 b t e)) (fun e f => x2 (ix2 e f)) (fun e f => x3 (ix2 e f)) (fun e f => x8 (ix2 e f)) (fun e f => x9 (ix2 e f))) (fun t e => x0 (ix3 b t e)) i e := by
  rw [val_main_v23_apply]
  unfold Cert.Spec.ctx
  exact Finset.sum_congr rfl fun k _ => by rw [lidx23, ridx23, h21]

/-- The first output matrix at (b, t, f). -/
theorem v30_apply (x0 x1 : (⟨S32x1024x512, .f32⟩ : BufTy).Contents (Elt Ideal)) (x2 x3 x4 x6 : (⟨S512x512, .f32⟩ : BufTy).Contents (Elt Ideal)) (x8 x9 x10 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (t : Fin 1024) (f : Fin 512) :
    val_main_v30 (F := Ideal) x0 x1 x2 x3 x4 x6 x8 x9 x10 (ix3 b t f) = (Cert.Spec.out1 (fun t e => x0 (ix3 b t e)) (fun t e => x1 (ix3 b t e)) (fun e f => x2 (ix2 e f)) (fun e f => x3 (ix2 e f)) (fun e f => x4 (ix2 e f)) (fun e f => x6 (ix2 e f)) (fun e f => x8 (ix2 e f)) (fun e f => x9 (ix2 e f)) (fun e f => x10 (ix2 e f))) t f := by
  rw [val_main_v30_apply, val_main_v29_apply, val_main_v26_apply, val_main_v24_apply, val_main_v25_apply,
    val_main_v28_apply, val_main_v27_apply, val_main_call2_v0_apply, val_main_call2_cst_apply, idx27_28]
  simp only [Ideal.maximumf_def, Ideal.addf_def, Ideal.ofBits_def]
  unfold Cert.Spec.out1 Cert.Spec.outp Cert.Spec.lin
  refine congrArg₂ max (congrArg₂ (· + ·) (congrArg₂ (· + ·) ?_ ?_) rfl) rfl
  · exact Finset.sum_congr rfl fun k _ => by rw [lidx24, ridx24]
  · exact Finset.sum_congr rfl fun k _ => by rw [lidx25, ridx25, v22_apply x0 x1 x2 x3 x8 x9 h21]

/-- The second output matrix at (b, t, f). -/
theorem v37_apply (x0 x1 : (⟨S32x1024x512, .f32⟩ : BufTy).Contents (Elt Ideal)) (x2 x3 x5 x7 : (⟨S512x512, .f32⟩ : BufTy).Contents (Elt Ideal)) (x8 x9 x11 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (t : Fin 1024) (f : Fin 512) :
    val_main_v37 (F := Ideal) x0 x1 x2 x3 x5 x7 x8 x9 x11 (ix3 b t f) = (Cert.Spec.out2 (fun t e => x0 (ix3 b t e)) (fun t e => x1 (ix3 b t e)) (fun e f => x2 (ix2 e f)) (fun e f => x3 (ix2 e f)) (fun e f => x5 (ix2 e f)) (fun e f => x7 (ix2 e f)) (fun e f => x8 (ix2 e f)) (fun e f => x9 (ix2 e f)) (fun e f => x11 (ix2 e f))) t f := by
  rw [val_main_v37_apply, val_main_v36_apply, val_main_v33_apply, val_main_v31_apply, val_main_v32_apply,
    val_main_v35_apply, val_main_v34_apply, val_main_call3_v0_apply, val_main_call3_cst_apply, idx34_35]
  simp only [Ideal.maximumf_def, Ideal.addf_def, Ideal.ofBits_def]
  unfold Cert.Spec.out2 Cert.Spec.outp Cert.Spec.lin
  refine congrArg₂ max (congrArg₂ (· + ·) (congrArg₂ (· + ·) ?_ ?_) rfl) rfl
  · exact Finset.sum_congr rfl fun k _ => by rw [lidx31, ridx31]
  · exact Finset.sum_congr rfl fun k _ => by rw [lidx32, ridx32, v23_apply x0 x1 x2 x3 x8 x9 h21]

/-- The first half's means at (b, f). -/
theorem v40_apply (x0 x1 : (⟨S32x1024x512, .f32⟩ : BufTy).Contents (Elt Ideal)) (x2 x3 x4 x6 : (⟨S512x512, .f32⟩ : BufTy).Contents (Elt Ideal)) (x8 x9 x10 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (f : Fin 512) :
    val_main_v40 (F := Ideal) x0 x1 x2 x3 x4 x6 x8 x9 x10 (ix2 b f) = Cert.Spec.mean (Cert.Spec.out1 (fun t e => x0 (ix3 b t e)) (fun t e => x1 (ix3 b t e)) (fun e f => x2 (ix2 e f)) (fun e f => x3 (ix2 e f)) (fun e f => x4 (ix2 e f)) (fun e f => x6 (ix2 e f)) (fun e f => x8 (ix2 e f)) (fun e f => x9 (ix2 e f)) (fun e f => x10 (ix2 e f))) f := by
  rw [val_main_v40_apply, val_main_v38_apply, val_main_v39_apply, val_main_cst_3_apply, val_main_cst_2_apply]
  simp only [Ideal.hostDivf_def, Ideal.ofBits_def]
  rw [Ideal.ofBits_zero_f32, zero_add]
  unfold Cert.Spec.mean
  refine congrArg₂ Ideal.div (Finset.sum_congr rfl fun k _ => ?_) rfl
  rw [idx38, v30_apply x0 x1 x2 x3 x4 x6 x8 x9 x10 h21]

/-- The second half's means at (b, f). -/
theorem v43_apply (x0 x1 : (⟨S32x1024x512, .f32⟩ : BufTy).Contents (Elt Ideal)) (x2 x3 x5 x7 : (⟨S512x512, .f32⟩ : BufTy).Contents (Elt Ideal)) (x8 x9 x11 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (f : Fin 512) :
    val_main_v43 (F := Ideal) x0 x1 x2 x3 x5 x7 x8 x9 x11 (ix2 b f) = Cert.Spec.mean (Cert.Spec.out2 (fun t e => x0 (ix3 b t e)) (fun t e => x1 (ix3 b t e)) (fun e f => x2 (ix2 e f)) (fun e f => x3 (ix2 e f)) (fun e f => x5 (ix2 e f)) (fun e f => x7 (ix2 e f)) (fun e f => x8 (ix2 e f)) (fun e f => x9 (ix2 e f)) (fun e f => x11 (ix2 e f))) f := by
  rw [val_main_v43_apply, val_main_v41_apply, val_main_v42_apply, val_main_cst_5_apply, val_main_cst_4_apply]
  simp only [Ideal.hostDivf_def, Ideal.ofBits_def]
  rw [Ideal.ofBits_zero_f32, zero_add]
  unfold Cert.Spec.mean
  refine congrArg₂ Ideal.div (Finset.sum_congr rfl fun k _ => ?_) rfl
  rw [idx41, v37_apply x0 x1 x2 x3 x5 x7 x8 x9 x11 h21]

/-- The result at (b, q). -/
theorem v44_apply (x0 x1 : (⟨S32x1024x512, .f32⟩ : BufTy).Contents (Elt Ideal)) (x2 x3 x4 x5 x6 x7 : (⟨S512x512, .f32⟩ : BufTy).Contents (Elt Ideal)) (x8 x9 x10 x11 : (⟨S1024x512, .f32⟩ : BufTy).Contents (Elt Ideal))
    (h21 : ∀ (b : Fin 32) (i j : Fin 1024), val_main_v21 (F := Ideal) x0 x1 x2 x3 x8 x9 (ix3 b i j) = (Cert.Spec.attn (fun t e => x0 (ix3 b t e)) (fun t e => x1 (ix3 b t e)) (fun e f => x2 (ix2 e f)) (fun e f => x3 (ix2 e f)) (fun e f => x8 (ix2 e f)) (fun e f => x9 (ix2 e f))) i j)
    (b : Fin 32) (q : Fin 1024) :
    val_main_v44 (F := Ideal) x0 x1 x2 x3 x4 x5 x6 x7 x8 x9 x10 x11 (ix2 b q)
      = Cert.Spec.result (fun t e => x0 (ix3 b t e)) (fun t e => x1 (ix3 b t e)) (fun e f => x2 (ix2 e f)) (fun e f => x3 (ix2 e f)) (fun e f => x4 (ix2 e f)) (fun e f => x5 (ix2 e f)) (fun e f => x6 (ix2 e f)) (fun e f => x7 (ix2 e f)) (fun e f => x8 (ix2 e f)) (fun e f => x9 (ix2 e f)) (fun e f => x10 (ix2 e f)) (fun e f => x11 (ix2 e f)) q := by
  unfold val_main_v44 Cert.Spec.result
  by_cases h : q.val < 512
  · -- a column below 512 lies in the first half
    rw [dif_pos h]
    refine (concatenate_pair_apply_left (t := S32x1024) (s₁ := S32x512) (s₂ := S32x512) (1 : Fin 2) _ _
      concatenates_S32x512_S32x512_S32x1024_d1 (ix2 b q) rfl
      (ix2 b ⟨q.val, h⟩) (fun a => by match a with | ⟨0, _⟩ => rfl | ⟨1, _⟩ => rfl)).trans ?_
    exact v40_apply x0 x1 x2 x3 x4 x6 x8 x9 x10 h21 b ⟨q.val, h⟩
  · -- a column from 512 on lies in the second half, 512 columns further left
    rw [dif_neg h]
    refine (concatenate_pair_apply_right (t := S32x1024) (s₁ := S32x512) (s₂ := S32x512) (1 : Fin 2) _ _
      concatenates_S32x512_S32x512_S32x1024_d1 (ix2 b q) rfl rfl
      (ix2 b ⟨q.val - 512, by omega⟩)
      (fun a ha => by
        match a, ha with
        | ⟨0, _⟩, _ => rfl
        | ⟨1, _⟩, ha => exact absurd rfl ha)
      (by show q.val - 512 + 512 = q.val; omega)).trans ?_
    exact v43_apply x0 x1 x2 x3 x5 x7 x8 x9 x11 h21 b ⟨q.val - 512, by omega⟩

end Cert.ReferenceIdeal.RV

end
-- ==== Proof.RefResult.lean ====
/-
  The reference's result read entry by entry: entry (b, q) is the specification's result row of batch element b at q.
  The softmax stage's reading is supplied to the stages built on it.
-/
import proofs.«168137_j42631845380745_1_alg».proof.Proof.RefSoftmax
import proofs.«168137_j42631845380745_1_alg».proof.Proof.RefOut

noncomputable section

namespace Cert.ReferenceIdeal.RV

open Idealize.ShloMosaic Idealize.ShloMosaic.ValueIdx Cert.ReferenceIdeal Cert.ReferenceIdeal.Gen Cert.ReferenceIdeal.Read

/-- The reference's result at (b, q). -/
theorem result_apply (x0 x1 : (⟨S32x1024x512, .f32⟩ : BufTy).Contents (Elt Ideal)) (x2 x3 x4 x5 x6 x7 : (⟨S512x512, .f32⟩ : BufTy).Contents (Elt Ideal)) (x8 x9 x10 x11 : (⟨S1024x512, .f32⟩ : BufTy).Contents (Elt Ideal)) (b : Fin 32) (q : Fin 1024) :
    val_main_v44 (F := Ideal) x0 x1 x2 x3 x4 x5 x6 x7 x8 x9 x10 x11 (ix2 b q)
      = Cert.Spec.result (fun t e => x0 (ix3 b t e)) (fun t e => x1 (ix3 b t e)) (fun e f => x2 (ix2 e f)) (fun e f => x3 (ix2 e f)) (fun e f => x4 (ix2 e f)) (fun e f => x5 (ix2 e f)) (fun e f => x6 (ix2 e f)) (fun e f => x7 (ix2 e f)) (fun e f => x8 (ix2 e f)) (fun e f => x9 (ix2 e f)) (fun e f => x10 (ix2 e f)) (fun e f => x11 (ix2 e f)) q :=
  v44_apply x0 x1 x2 x3 x4 x5 x6 x7 x8 x9 x10 x11 (fun b i j => v21_apply x0 x1 x2 x3 x8 x9 b i j) b q

end Cert.ReferenceIdeal.RV

end
-- ==== Proof.lean ====
/-
  The kernel computes, for each of 32 batch elements, two relu encodings of the two input sequences, the softmax of
  their score matrix along rows, the two attention products, two relu output matrices and their column means laid in
  one row of 1024; the reference computes the same with batched contractions on the host. On the extended reals the
  two are one function of the arguments, entry by entry: the same sums over the same coordinates, the same maximum
  from minus infinity, the same exponential and quotients — no law beyond reading each operation at an index is used,
  and the precondition is not opened.

  The kernel's frames are the generated ones; what its result holds is read off its frame run (Proof/KValue.lean) over
  the body's stored row read entry by entry (Proof/KPayload.lean and the modules under it); the reference's stages are
  read entry by entry in Proof/RefSoftmax.lean and Proof/RefOut.lean, over its run (Proof/RefRun.lean); the
  specification both meet is Proof/Spec.lean.
-/
import proofs.«168137_j42631845380745_1_alg».proof.Defs
import proofs.«168137_j42631845380745_1_alg».proof.Proof.Gen.Kernel
import proofs.«168137_j42631845380745_1_alg».proof.Proof.Gen.Kernel.Skeleton
import proofs.«168137_j42631845380745_1_alg».proof.Proof.Gen.Kernel.Launch
import proofs.«168137_j42631845380745_1_alg».proof.Proof.Gen.Kernel.Points
import proofs.«168137_j42631845380745_1_alg».proof.Proof.Gen.Kernel.Frame
import proofs.«168137_j42631845380745_1_alg».proof.Proof.Gen.KernelIdeal
import proofs.«168137_j42631845380745_1_alg».proof.Proof.Gen.KernelIdeal.Skeleton
import proofs.«168137_j42631845380745_1_alg».proof.Proof.Gen.KernelIdeal.Launch
import proofs.«168137_j42631845380745_1_alg».proof.Proof.Gen.KernelIdeal.Points
import proofs.«168137_j42631845380745_1_alg».proof.Proof.Gen.KernelIdeal.Frame
import proofs.«168137_j42631845380745_1_alg».proof.Proof.Gen.ReferenceIdeal
import proofs.«168137_j42631845380745_1_alg».proof.Proof.Gen.Pre_finite_inputs
import proofs.«168137_j42631845380745_1_alg».proof.Proof.KPayload
import proofs.«168137_j42631845380745_1_alg».proof.Proof.KValue
import proofs.«168137_j42631845380745_1_alg».proof.Proof.RefResult
import proofs.«168137_j42631845380745_1_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' frames at the word level and at the ideal level: the generated frame certificates. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term is its last stage. -/
theorem reference_result_stage (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v44 m c
      = Cert.ReferenceIdeal.Read.val_main_v44 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11)) := by
  unfold Cert.ReferenceIdeal.Value.res_main_v44; rfl

/-- From memories that agree on the arguments, the kernel program and the reference both run, and end with the same
    result: at (b, q) each holds the specification's result row of batch element b at q. -/
theorem algebraic : Cert.algebraic_KernelIdeal_ReferenceIdeal := by
  intro m ρ m' ρ' _ hagree
  refine ⟨fun c => Cert.KernelIdeal.KVal.resultArr m c,
    Cert.KernelIdeal.KVal.kernel_run m ρ Cert.KernelIdeal.KV.payload_apply, ?_⟩
  refine (θ_run Cert.ReferenceIdeal.defs _ _).mono (fun _ h c => ⟨(h c).1.trans ?_, (h c).2⟩)
    (Cert.ReferenceIdeal.Value.run (F := Ideal) m' ρ')
  rw [reference_result_stage]
  obtain ⟨h0, h1, h2, h3, h4, h5, h6, h7, h8, h9, h10, h11⟩ := hagree c
  funext i
  obtain ⟨b, q, rfl⟩ : ∃ (b : Fin 32) (q : Fin 1024), i = ix2 b q := ⟨i 0, i 1, eq_ix2 i⟩
  rw [Cert.ReferenceIdeal.RV.result_apply, h0, h1, h2, h3, h4, h5, h6, h7, h8, h9, h10, h11]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
